-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x5x1024x512 : Shape := ⟨4, ![64, 5, 1024, 512]⟩
abbrev S5x25 : Shape := ⟨2, ![5, 25]⟩
abbrev S25 : Shape := ⟨1, ![25]⟩
abbrev S25x5 : Shape := ⟨2, ![25, 5]⟩
abbrev S5 : Shape := ⟨1, ![5]⟩
abbrev S1 : Shape := ⟨1, ![1]⟩
abbrev S_ : Shape := ⟨0, ![]⟩

class Facts : Prop where
  bcast_S_S64x5x1024x512 : S_.BroadcastsInDim S64x5x1024x512 (![] : Fin 0 → Fin S64x5x1024x512.rank)
  reducesTo_S64x5x1024x512_S_d0_1_2_3 : S64x5x1024x512.ReducesTo [0, 1, 2, 3] S_
  h_S_ : 0 < S_.numel
  bcast_S_S5x25 : S_.BroadcastsInDim S5x25 (![] : Fin 0 → Fin S5x25.rank)
  reducesTo_S5x25_S_d0_1 : S5x25.ReducesTo [0, 1] S_
  bcast_S_S25 : S_.BroadcastsInDim S25 (![] : Fin 0 → Fin S25.rank)
  reducesTo_S25_S_d0 : S25.ReducesTo [0] S_
  bcast_S_S25x5 : S_.BroadcastsInDim S25x5 (![] : Fin 0 → Fin S25x5.rank)
  reducesTo_S25x5_S_d0_1 : S25x5.ReducesTo [0, 1] S_
  bcast_S_S5 : S_.BroadcastsInDim S5 (![] : Fin 0 → Fin S5.rank)
  reducesTo_S5_S_d0 : S5.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S5 .f32) (main_arg5 : FVec F S1 .f32) (main_v13 : IVec S_ 1) (main_v16 : IVec S25x5 1) : IVec S_ 1 :=
  let main_c_5 : IVec S_ 1 := constantI S_ 1 1#1
  let main_v17 : IVec S_ 1 := (fun x v => Host.reduce IntOp.andi x v reducesTo_S25x5_S_d0_1 h_S_) main_v16 main_c_5
  let main_v18 : IVec S_ 1 := andi main_v13 main_v17
  let main_v19 : FVec F S5 .f32 := Host.absf main_arg4
  let main_cst_6 : FVec F S_ .f32 := constant S_ .f32 0x7F800000#32
  let main_v20 : FVec F S5 .f32 := broadcastInDim S5 ![] bcast_S_S5 main_cst_6
  let main_v21 : IVec S5 1 := cmpf .olt main_v19 main_v20
  let main_c_7 : IVec S_ 1 := constantI S_ 1 1#1
  let main_v22 : IVec S_ 1 := (fun x v => Host.reduce IntOp.andi x v reducesTo_S5_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S64x5x1024x512 .f32) (main_arg1 : FVec F S5x25 .f32) (main_arg2 : FVec F S25 .f32) (main_arg3 : FVec F S25x5 .f32) (main_arg4 : FVec F S5 .f32) (main_arg5 : FVec F S1 .f32) : IVec S_ 1 :=
  let main_v0 : FVec F S64x5x1024x512 .f32 := Host.absf main_arg0
  let main_cst : FVec F S_ .f32 := constant S_ .f32 0x7F800000#32
  let main_v1 : FVec F S64x5x1024x512 .f32 := broadcastInDim S64x5x1024x512 ![] bcast_S_S64x5x1024x512 main_cst
  let main_v2 : IVec S64x5x1024x512 1 := cmpf .olt main_v0 main_v1
  let main_c : IVec S_ 1 := constantI S_ 1 1#1
  let main_v3 : IVec S_ 1 := (fun x v => Host.reduce IntOp.andi x v reducesTo_S64x5x1024x512_S_d0_1_2_3 h_S_) main_v2 main_c
  let main_v4 : FVec F S5x25 .f32 := Host.absf main_arg1
  let main_cst_0 : FVec F S_ .f32 := constant S_ .f32 0x7F800000#32
  let main_v5 : FVec F S5x25 .f32 := broadcastInDim S5x25 ![] bcast_S_S5x25 main_cst_0
  let main_v6 : IVec S5x25 1 := cmpf .olt main_v4 main_v5
  let main_c_1 : IVec S_ 1 := constantI S_ 1 1#1
  let main_v7 : IVec S_ 1 := (fun x v => Host.reduce IntOp.andi x v reducesTo_S5x25_S_d0_1 h_S_) main_v6 main_c_1
  let main_v8 : IVec S_ 1 := andi main_v3 main_v7
  let main_v9 : FVec F S25 .f32 := Host.absf main_arg2
  let main_cst_2 : FVec F S_ .f32 := constant S_ .f32 0x7F800000#32
  let main_v10 : FVec F S25 .f32 := broadcastInDim S25 ![] bcast_S_S25 main_cst_2
  let main_v11 : IVec S25 1 := cmpf .olt main_v9 main_v10
  let main_c_3 : IVec S_ 1 := constantI S_ 1 1#1
  let main_v12 : IVec S_ 1 := (fun x v => Host.reduce IntOp.andi x v reducesTo_S25_S_d0 h_S_) main_v11 main_c_3
  let main_v13 : IVec S_ 1 := andi main_v8 main_v12
  let main_v14 : FVec F S25x5 .f32 := Host.absf main_arg3
  let main_cst_4 : FVec F S_ .f32 := constant S_ .f32 0x7F800000#32
  let main_v15 : FVec F S25x5 .f32 := broadcastInDim S25x5 ![] bcast_S_S25x5 main_cst_4
  let main_v16 : IVec S25x5 1 := cmpf .olt main_v14 main_v15
  fn_part1 (F := F) main_arg4 main_arg5 main_v13 main_v16
-- ==== Kernel.lean ====
abbrev S64x5x1024x512 : Shape := ⟨4, ![64, 5, 1024, 512]⟩
abbrev S5x25 : Shape := ⟨2, ![5, 25]⟩
abbrev S25 : Shape := ⟨1, ![25]⟩
abbrev S25x5 : Shape := ⟨2, ![25, 5]⟩
abbrev S5 : Shape := ⟨1, ![5]⟩
abbrev S1 : Shape := ⟨1, ![1]⟩
abbrev S64x5 : Shape := ⟨2, ![64, 5]⟩
abbrev S8x5x128x512 : Shape := ⟨4, ![8, 5, 128, 512]⟩
abbrev S8x5 : Shape := ⟨2, ![8, 5]⟩
abbrev S8x5x128 : Shape := ⟨3, ![8, 5, 128]⟩
abbrev S64x25 : Shape := ⟨2, ![64, 25]⟩
abbrev S1x25 : Shape := ⟨2, ![1, 25]⟩
abbrev S_ : Shape := ⟨0, ![]⟩
abbrev S1x5 : Shape := ⟨2, ![1, 5]⟩
abbrev S1x1 : Shape := ⟨2, ![1, 1]⟩
abbrev S8x5x64x512 : Shape := ⟨4, ![8, 5, 64, 512]⟩
abbrev S8x5x1x1 : Shape := ⟨4, ![8, 5, 1, 1]⟩

abbrev nBuf : Space → Nat
  | .hbm => 57
  | .vmem => 12
  | .smem => 0
  | _ => 0

abbrev bufTy : (tb : Table) → Fin (tcTables nBuf tb) → BufTy
  | .hbm, ⟨0, _⟩ => ⟨S64x5x1024x512, .f32⟩
  | .hbm, ⟨1, _⟩ => ⟨S5x25, .f32⟩
  | .hbm, ⟨2, _⟩ => ⟨S25, .f32⟩
  | .hbm, ⟨3, _⟩ => ⟨S25x5, .f32⟩
  | .hbm, ⟨4, _⟩ => ⟨S5, .f32⟩
  | .hbm, ⟨5, _⟩ => ⟨S1, .f32⟩
  | .hbm, ⟨6, _⟩ => ⟨S64x5, .f32⟩
  | .hbm, ⟨7, _⟩ => ⟨S64x5, .f32⟩
  | .hbm, ⟨8, _⟩ => ⟨S64x25, .f32⟩
  | .hbm, ⟨9, _⟩ => ⟨S1x25, .f32⟩
  | .hbm, ⟨10, _⟩ => ⟨S64x25, .f32⟩
  | .hbm, ⟨11, _⟩ => ⟨S64x25, .f32⟩
  | .hbm, ⟨12, _⟩ => ⟨S_, .f32⟩
  | .hbm, ⟨13, _⟩ => ⟨S64x25, .f32⟩
  | .hbm, ⟨14, _⟩ => ⟨S64x25, .f32⟩
  | .hbm, ⟨15, _⟩ => ⟨S64x5, .f32⟩
  | .hbm, ⟨16, _⟩ => ⟨S1x5, .f32⟩
  | .hbm, ⟨17, _⟩ => ⟨S64x5, .f32⟩
  | .hbm, ⟨18, _⟩ => ⟨S64x5, .f32⟩
  | .hbm, ⟨19, _⟩ => ⟨S64x5, .f32⟩
  | .hbm, ⟨20, _⟩ => ⟨S64x5, .f32⟩
  | .hbm, ⟨21, _⟩ => ⟨S_, .f32⟩
  | .hbm, ⟨22, _⟩ => ⟨S64x5, .f32⟩
  | .hbm, ⟨23, _⟩ => ⟨S64x5, .f32⟩
  | .hbm, ⟨24, _⟩ => ⟨S_, .f32⟩
  | .hbm, ⟨25, _⟩ => ⟨S64x5, .f32⟩
  | .hbm, ⟨26, _⟩ => ⟨S64x5, .f32⟩
  | .hbm, ⟨27, _⟩ => ⟨S64x25, .f32⟩
  | .hbm, ⟨28, _⟩ => ⟨S1x25, .f32⟩
  | .hbm, ⟨29, _⟩ => ⟨S64x25, .f32⟩
  | .hbm, ⟨30, _⟩ => ⟨S64x25, .f32⟩
  | .hbm, ⟨31, _⟩ => ⟨S_, .f32⟩
  | .hbm, ⟨32, _⟩ => ⟨S64x25, .f32⟩
  | .hbm, ⟨33, _⟩ => ⟨S64x25, .f32⟩
  | .hbm, ⟨34, _⟩ => ⟨S64x5, .f32⟩
  | .hbm, ⟨35, _⟩ => ⟨S1x5, .f32⟩
  | .hbm, ⟨36, _⟩ => ⟨S64x5, .f32⟩
  | .hbm, ⟨37, _⟩ => ⟨S64x5, .f32⟩
  | .hbm, ⟨38, _⟩ => ⟨S64x5, .f32⟩
  | .hbm, ⟨39, _⟩ => ⟨S64x5, .f32⟩
  | .hbm, ⟨40, _⟩ => ⟨S_, .f32⟩
  | .hbm, ⟨41, _⟩ => ⟨S64x5, .f32⟩
  | .hbm, ⟨42, _⟩ => ⟨S64x5, .f32⟩
  | .hbm, ⟨43, _⟩ => ⟨S_, .f32⟩
  | .hbm, ⟨44, _⟩ => ⟨S64x5, .f32⟩
  | .hbm, ⟨45, _⟩ => ⟨S64x5, .f32⟩
  | .hbm, ⟨46, _⟩ => ⟨S_, .f32⟩
  | .hbm, ⟨47, _⟩ => ⟨S1, .f32⟩
  | .hbm, ⟨48, _⟩ => ⟨S1, .f32⟩
  | .hbm, ⟨49, _⟩ => ⟨S1x1, .f32⟩
  | .hbm, ⟨50, _⟩ => ⟨S64x5, .f32⟩
  | .hbm, ⟨51, _⟩ => ⟨S64x5, .f32⟩
  | .hbm, ⟨52, _⟩ => ⟨S1x1, .f32⟩
  | .hbm, ⟨53, _⟩ => ⟨S64x5, .f32⟩
  | .hbm, ⟨54, _⟩ => ⟨S64x5, .f32⟩
  | .hbm, ⟨55, _⟩ => ⟨S64x5, .f32⟩
  | .hbm, ⟨56, _⟩ => ⟨S64x5x1024x512, .f32⟩
  | .local _ .vmem, ⟨0, _⟩ => ⟨S8x5x128x512, .f32⟩
  | .local _ .vmem, ⟨1, _⟩ => ⟨S8x5x128x512, .f32⟩
  | .local _ .vmem, ⟨2, _⟩ => ⟨S8x5, .f32⟩
  | .local _ .vmem, ⟨3, _⟩ => ⟨S8x5, .f32⟩
  | .local _ .vmem, ⟨4, _⟩ => ⟨S8x5, .f32⟩
  | .local _ .vmem, ⟨5, _⟩ => ⟨S8x5, .f32⟩
  | .local _ .vmem, ⟨6, _⟩ => ⟨S8x5x64x512, .f32⟩
  | .local _ .vmem, ⟨7, _⟩ => ⟨S8x5x64x512, .f32⟩
  | .local _ .vmem, ⟨8, _⟩ => ⟨S8x5, .f32⟩
  | .local _ .vmem, ⟨9, _⟩ => ⟨S8x5, .f32⟩
  | .local _ .vmem, ⟨10, _⟩ => ⟨S8x5x64x512, .f32⟩
  | .local _ .vmem, ⟨11, _⟩ => ⟨S8x5x64x512, .f32⟩
  | _, _ => ⟨S64x5x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call1_cst : Ref sig .tc := ⟨.hbm, 31, rfl⟩
abbrev main_call1_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x5x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S8x5x64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x5 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x5x64x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S8x5_S8x5_0_0 : ∀ a, (![0, 0] : Fin 2 → Nat) a + S8x5.size a ≤ S8x5.size a
  h_S8x5 : 0 < S8x5.numel
  inb_S8x5x128x512_S8x5x128x512_0_0_0_0 : ∀ a, (![0, 0, 0, 0] : Fin 4 → Nat) a + S8x5x128x512.size a ≤ S8x5x128x512.size a
  h_S8x5x128x512 : 0 < S8x5x128x512.numel
  reduces_S8x5x128x512_S8x5x128 : S8x5x128x512.Reduces [3] S8x5x128
  reduces_S8x5x128_S8x5 : S8x5x128.Reduces [2] S8x5
  shapeCasts_S8x5_S8x5 : S8x5.ShapeCasts S8x5
  bcast_S25_S1x25_1 : S25.BroadcastsInDim S1x25 (![1] : Fin 1 → Fin S1x25.rank)
  bcast_S1x25_S64x25_0_1 : S1x25.BroadcastsInDim S64x25 (![0, 1] : Fin 2 → Fin S64x25.rank)
  bcast_S_S64x25 : S_.BroadcastsInDim S64x25 (![] : Fin 0 → Fin S64x25.rank)
  bcast_S5_S1x5_1 : S5.BroadcastsInDim S1x5 (![1] : Fin 1 → Fin S1x5.rank)
  bcast_S1x5_S64x5_0_1 : S1x5.BroadcastsInDim S64x5 (![0, 1] : Fin 2 → Fin S64x5.rank)
  bcast_S_S64x5 : S_.BroadcastsInDim S64x5 (![] : Fin 0 → Fin S64x5.rank)
  bcast_S_S1 : S_.BroadcastsInDim S1 (![] : Fin 0 → Fin S1.rank)
  bcast_S1_S1x1_1 : S1.BroadcastsInDim S1x1 (![1] : Fin 1 → Fin S1x1.rank)
  bcast_S1x1_S64x5_0_1 : S1x1.BroadcastsInDim S64x5 (![0, 1] : Fin 2 → Fin S64x5.rank)
  shapeCasts_S8x5_S8x5x1x1 : S8x5.ShapeCasts S8x5x1x1
  shapeCasts_S8x5x1x1_S8x5x1x1 : S8x5x1x1.ShapeCasts S8x5x1x1
  broadcasts_S8x5x1x1_S8x5x64x512 : S8x5x1x1.Broadcasts S8x5x64x512
  inb_S8x5x64x512_S8x5x64x512_0_0_0_0 : ∀ a, (![0, 0, 0, 0] : Fin 4 → Nat) a + S8x5x64x512.size a ≤ S8x5x64x512.size a
  h_S8x5x64x512 : 0 < S8x5x64x512.numel
  dot_S64x5_S5x25_S64x25_1_0_0_1_n_n_wf : DotDims.WF S64x5 S5x25 S64x25 [1] [0] [0] [1] [] []
  dot_S64x25_S25x5_S64x5_1_0_0_1_n_n_wf : DotDims.WF S64x25 S25x5 S64x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x5x128x512.size a ≤ S64x5x1024x512.size a
  hwx0_0 : ∀ i : grid0.Coords, EltTy.bits .f32 = 32 ∨ (Rect.block (s := S64x5x1024x512) S8x5x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x5.size a ≤ S64x5.size a
  hwx0_1 : ∀ i : grid0.Coords, EltTy.bits .f32 = 32 ∨ (Rect.block (s := S64x5) S8x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x5.size a ≤ S64x5.size a
  hwx0_2 : ∀ i : grid0.Coords, EltTy.bits .f32 = 32 ∨ (Rect.block (s := S64x5) S8x5.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x5x64x512.size a ≤ S64x5x1024x512.size a
  hwx1_0 : ∀ i : grid1.Coords, EltTy.bits .f32 = 32 ∨ (Rect.block (s := S64x5x1024x512) S8x5x64x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x5.size a ≤ S64x5.size a
  hwx1_1 : ∀ i : grid1.Coords, EltTy.bits .f32 = 32 ∨ (Rect.block (s := S64x5) S8x5.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x5x64x512.size a ≤ S64x5x1024x512.size a
  hwx1_2 : ∀ i : grid1.Coords, EltTy.bits .f32 = 32 ∨ (Rect.block (s := S64x5x1024x512) S8x5x64x512.size (cc1_transform_2 i) (hinb1_2 i)).WholeWords (EltTy.packing .f32)

variable [Facts₀]

def dot_S64x5_S5x25_S64x25_1_0_0_1_n_n : DotDims S64x5 S5x25 S64x25 where
  lhsContracting := [1]
  rhsContracting := [0]
  lhsNonContracting := [0]
  rhsNonContracting := [1]
  lhsBatch := []
  rhsBatch := []
  wf := dot_S64x5_S5x25_S64x25_1_0_0_1_n_n_wf
def dot_S64x25_S25x5_S64x5_1_0_0_1_n_n : DotDims S64x25 S25x5 S64x5 where
  lhsContracting := [1]
  rhsContracting := [0]
  lhsNonContracting := [0]
  rhsNonContracting := [1]
  lhsBatch := []
  rhsBatch := []
  wf := dot_S64x25_S25x5_S64x5_1_0_0_1_n_n_wf

abbrev win0_0 : Pipeline.Window sig grid0 :=
  Pipeline.Window.ofSpec (Memref.whole main_arg0) S8x5x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S8x5.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8x5.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S8x5x64x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S8x5.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S8x5x64x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S64x5x1024x512 : Shape := ⟨4, ![64, 5, 1024, 512]⟩
abbrev S5x25 : Shape := ⟨2, ![5, 25]⟩
abbrev S25 : Shape := ⟨1, ![25]⟩
abbrev S25x5 : Shape := ⟨2, ![25, 5]⟩
abbrev S5 : Shape := ⟨1, ![5]⟩
abbrev S1 : Shape := ⟨1, ![1]⟩
abbrev S_ : Shape := ⟨0, ![]⟩
abbrev S64x5 : Shape := ⟨2, ![64, 5]⟩
abbrev S64x25 : Shape := ⟨2, ![64, 25]⟩
abbrev S1x25 : Shape := ⟨2, ![1, 25]⟩
abbrev S1x5 : Shape := ⟨2, ![1, 5]⟩
abbrev S1x1 : Shape := ⟨2, ![1, 1]⟩
abbrev S64x5x1x1 : Shape := ⟨4, ![64, 5, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S64x5x1024x512, .f32⟩
  | .hbm, ⟨1, _⟩ => ⟨S5x25, .f32⟩
  | .hbm, ⟨2, _⟩ => ⟨S25, .f32⟩
  | .hbm, ⟨3, _⟩ => ⟨S25x5, .f32⟩
  | .hbm, ⟨4, _⟩ => ⟨S5, .f32⟩
  | .hbm, ⟨5, _⟩ => ⟨S1, .f32⟩
  | .hbm, ⟨6, _⟩ => ⟨S_, .f32⟩
  | .hbm, ⟨7, _⟩ => ⟨S64x5, .f32⟩
  | .hbm, ⟨8, _⟩ => ⟨S_, .f32⟩
  | .hbm, ⟨9, _⟩ => ⟨S64x5, .f32⟩
  | .hbm, ⟨10, _⟩ => ⟨S64x5, .f32⟩
  | .hbm, ⟨11, _⟩ => ⟨S_, .f32⟩
  | .hbm, ⟨12, _⟩ => ⟨S64x5, .f32⟩
  | .hbm, ⟨13, _⟩ => ⟨S64x25, .f32⟩
  | .hbm, ⟨14, _⟩ => ⟨S1x25, .f32⟩
  | .hbm, ⟨15, _⟩ => ⟨S64x25, .f32⟩
  | .hbm, ⟨16, _⟩ => ⟨S64x25, .f32⟩
  | .hbm, ⟨17, _⟩ => ⟨S_, .f32⟩
  | .hbm, ⟨18, _⟩ => ⟨S64x25, .f32⟩
  | .hbm, ⟨19, _⟩ => ⟨S64x25, .f32⟩
  | .hbm, ⟨20, _⟩ => ⟨S64x5, .f32⟩
  | .hbm, ⟨21, _⟩ => ⟨S1x5, .f32⟩
  | .hbm, ⟨22, _⟩ => ⟨S64x5, .f32⟩
  | .hbm, ⟨23, _⟩ => ⟨S64x5, .f32⟩
  | .hbm, ⟨24, _⟩ => ⟨S64x5, .f32⟩
  | .hbm, ⟨25, _⟩ => ⟨S64x5, .f32⟩
  | .hbm, ⟨26, _⟩ => ⟨S_, .f32⟩
  | .hbm, ⟨27, _⟩ => ⟨S64x5, .f32⟩
  | .hbm, ⟨28, _⟩ => ⟨S64x5, .f32⟩
  | .hbm, ⟨29, _⟩ => ⟨S_, .f32⟩
  | .hbm, ⟨30, _⟩ => ⟨S64x5, .f32⟩
  | .hbm, ⟨31, _⟩ => ⟨S64x5, .f32⟩
  | .hbm, ⟨32, _⟩ => ⟨S64x25, .f32⟩
  | .hbm, ⟨33, _⟩ => ⟨S1x25, .f32⟩
  | .hbm, ⟨34, _⟩ => ⟨S64x25, .f32⟩
  | .hbm, ⟨35, _⟩ => ⟨S64x25, .f32⟩
  | .hbm, ⟨36, _⟩ => ⟨S_, .f32⟩
  | .hbm, ⟨37, _⟩ => ⟨S64x25, .f32⟩
  | .hbm, ⟨38, _⟩ => ⟨S64x25, .f32⟩
  | .hbm, ⟨39, _⟩ => ⟨S64x5, .f32⟩
  | .hbm, ⟨40, _⟩ => ⟨S1x5, .f32⟩
  | .hbm, ⟨41, _⟩ => ⟨S64x5, .f32⟩
  | .hbm, ⟨42, _⟩ => ⟨S64x5, .f32⟩
  | .hbm, ⟨43, _⟩ => ⟨S64x5, .f32⟩
  | .hbm, ⟨44, _⟩ => ⟨S64x5, .f32⟩
  | .hbm, ⟨45, _⟩ => ⟨S_, .f32⟩
  | .hbm, ⟨46, _⟩ => ⟨S64x5, .f32⟩
  | .hbm, ⟨47, _⟩ => ⟨S64x5, .f32⟩
  | .hbm, ⟨48, _⟩ => ⟨S_, .f32⟩
  | .hbm, ⟨49, _⟩ => ⟨S64x5, .f32⟩
  | .hbm, ⟨50, _⟩ => ⟨S64x5, .f32⟩
  | .hbm, ⟨51, _⟩ => ⟨S_, .f32⟩
  | .hbm, ⟨52, _⟩ => ⟨S1, .f32⟩
  | .hbm, ⟨53, _⟩ => ⟨S1, .f32⟩
  | .hbm, ⟨54, _⟩ => ⟨S1x1, .f32⟩
  | .hbm, ⟨55, _⟩ => ⟨S64x5, .f32⟩
  | .hbm, ⟨56, _⟩ => ⟨S64x5, .f32⟩
  | .hbm, ⟨57, _⟩ => ⟨S1x1, .f32⟩
  | .hbm, ⟨58, _⟩ => ⟨S64x5, .f32⟩
  | .hbm, ⟨59, _⟩ => ⟨S64x5, .f32⟩
  | .hbm, ⟨60, _⟩ => ⟨S64x5, .f32⟩
  | .hbm, ⟨61, _⟩ => ⟨S64x5x1x1, .f32⟩
  | .hbm, ⟨62, _⟩ => ⟨S64x5x1024x512, .f32⟩
  | .hbm, ⟨63, _⟩ => ⟨S64x5x1024x512, .f32⟩
  | _, _ => ⟨S64x5x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_cst : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call1_cst : Ref sig .tc := ⟨.hbm, 36, rfl⟩
abbrev main_call1_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]

class Facts₀ : Prop where
  reducesTo_S64x5x1024x512_S64x5_d2_3 : S64x5x1024x512.ReducesTo [2, 3] S64x5
  h_S_ : 0 < S_.numel
  bcast_S_S64x5 : S_.BroadcastsInDim S64x5 (![] : Fin 0 → Fin S64x5.rank)
  bcast_S25_S1x25_1 : S25.BroadcastsInDim S1x25 (![1] : Fin 1 → Fin S1x25.rank)
  bcast_S1x25_S64x25_0_1 : S1x25.BroadcastsInDim S64x25 (![0, 1] : Fin 2 → Fin S64x25.rank)
  bcast_S_S64x25 : S_.BroadcastsInDim S64x25 (![] : Fin 0 → Fin S64x25.rank)
  bcast_S5_S1x5_1 : S5.BroadcastsInDim S1x5 (![1] : Fin 1 → Fin S1x5.rank)
  bcast_S1x5_S64x5_0_1 : S1x5.BroadcastsInDim S64x5 (![0, 1] : Fin 2 → Fin S64x5.rank)
  bcast_S_S1 : S_.BroadcastsInDim S1 (![] : Fin 0 → Fin S1.rank)
  bcast_S1_S1x1_1 : S1.BroadcastsInDim S1x1 (![1] : Fin 1 → Fin S1x1.rank)
  bcast_S1x1_S64x5_0_1 : S1x1.BroadcastsInDim S64x5 (![0, 1] : Fin 2 → Fin S64x5.rank)
  bcast_S64x5_S64x5x1x1_0_1 : S64x5.BroadcastsInDim S64x5x1x1 (![0, 1] : Fin 2 → Fin S64x5x1x1.rank)
  bcast_S64x5x1x1_S64x5x1024x512_0_1_2_3 : S64x5x1x1.BroadcastsInDim S64x5x1024x512 (![0, 1, 2, 3] : Fin 4 → Fin S64x5x1024x512.rank)
  dot_S64x5_S5x25_S64x25_1_0_0_1_n_n_wf : DotDims.WF S64x5 S5x25 S64x25 [1] [0] [0] [1] [] []
  dot_S64x25_S25x5_S64x5_1_0_0_1_n_n_wf : DotDims.WF S64x25 S25x5 S64x5 [1] [0] [0] [1] [] []

variable [Facts₀]

def dot_S64x5_S5x25_S64x25_1_0_0_1_n_n : DotDims S64x5 S5x25 S64x25 where
  lhsContracting := [1]
  rhsContracting := [0]
  lhsNonContracting := [0]
  rhsNonContracting := [1]
  lhsBatch := []
  rhsBatch := []
  wf := dot_S64x5_S5x25_S64x25_1_0_0_1_n_n_wf
def dot_S64x25_S25x5_S64x5_1_0_0_1_n_n : DotDims S64x25 S25x5 S64x5 where
  lhsContracting := [1]
  rhsContracting := [0]
  lhsNonContracting := [0]
  rhsNonContracting := [1]
  lhsBatch := []
  rhsBatch := []
  wf := dot_S64x25_S25x5_S64x5_1_0_0_1_n_n_wf

class Facts : Prop extends Facts₀ where

variable [Facts]
-- ==== Proof.Gate.lean ====
/-
  The gate between the two kernels: a two-layer perceptron (linear, relu, linear, logistic) applied to the table of
  means and to the table of maxima, the two results mixed with weights 1 - w and w. It is the same chain of host
  operations in both programs, so it is carried as one function of the two tables and never opened. Then: what the
  second kernel's table operand holds when that kernel is entered, and that x is still as launched there.
-/
import proofs.«121791_j59004260712650_1_alg».proof.Proof.Gen.KernelIdeal.Frame
import Idealize.ShloMosaic.Lib.StableHlo.Run

set_option maxRecDepth 16384

noncomputable section

namespace Cert.KernelIdeal.Gate

open Idealize.ShloMosaic Idealize.ShloMosaic.TcCoe Idealize.SL.Sem Idealize.ShloMosaic.StableHlo
open Cert.KernelIdeal Cert.KernelIdeal.Gen

variable {F : FTy → Type} [FloatOps F]

/-- The perceptron on a [64, 5] table: logistic (relu (p · W1 + b1) · W2 + b2), the logistic as 1 / (1 + exp (-z)). -/
def mlp (p : (⟨S64x5, .f32⟩ : BufTy).Contents (Elt F)) (w1 : (⟨S5x25, .f32⟩ : BufTy).Contents (Elt F))
    (b1 : (⟨S25, .f32⟩ : BufTy).Contents (Elt F)) (w2 : (⟨S25x5, .f32⟩ : BufTy).Contents (Elt F))
    (b2 : (⟨S5, .f32⟩ : BufTy).Contents (Elt F)) : (⟨S64x5, .f32⟩ : BufTy).Contents (Elt F) :=
  Host.divf (broadcastInDim S64x5 ![] bcast_S_S64x5 (constant (F := F) S_ .f32 0x3F800000#32))
    (addf (broadcastInDim S64x5 ![] bcast_S_S64x5 (constant (F := F) S_ .f32 0x3F800000#32))
      (Host.exp (Host.negf (addf
        (Host.dotGeneral dot_S64x25_S25x5_S64x5_1_0_0_1_n_n none
          (maximumf (addf (Host.dotGeneral dot_S64x5_S5x25_S64x25_1_0_0_1_n_n none p w1)
              (broadcastInDim S64x25 ![0, 1] bcast_S1x25_S64x25_0_1 (broadcastInDim S1x25 ![1] bcast_S25_S1x25_1 b1)))
            (broadcastInDim S64x25 ![] bcast_S_S64x25 (constant (F := F) S_ .f32 0x00000000#32)))
          w2)
        (broadcastInDim S64x5 ![0, 1] bcast_S1x5_S64x5_0_1 (broadcastInDim S1x5 ![1] bcast_S5_S1x5_1 b2))))))

/-- The mixed gate: (1 - w) · mlp(avg) + w · mlp(mx). -/
def gate (avg mx : (⟨S64x5, .f32⟩ : BufTy).Contents (Elt F)) (w1 : (⟨S5x25, .f32⟩ : BufTy).Contents (Elt F))
    (b1 : (⟨S25, .f32⟩ : BufTy).Contents (Elt F)) (w2 : (⟨S25x5, .f32⟩ : BufTy).Contents (Elt F))
    (b2 : (⟨S5, .f32⟩ : BufTy).Contents (Elt F)) (w : (⟨S1, .f32⟩ : BufTy).Contents (Elt F)) :
    (⟨S64x5, .f32⟩ : BufTy).Contents (Elt F) :=
  addf
    (mulf (broadcastInDim S64x5 ![0, 1] bcast_S1x1_S64x5_0_1 (broadcastInDim S1x1 ![1] bcast_S1_S1x1_1
        (subf (broadcastInDim S1 ![] bcast_S_S1 (constant (F := F) S_ .f32 0x3F800000#32)) w)))
      (mlp avg w1 b1 w2 b2))
    (mulf (broadcastInDim S64x5 ![0, 1] bcast_S1x1_S64x5_0_1 (broadcastInDim S1x1 ![1] bcast_S1_S1x1_1 w))
      (mlp mx w1 b1 w2 b2))

variable (m : (ℓ : Loc nD τ sig) → Buf (Elt F) ℓ) (ρ : Dev nD → PrngReg)

set_option maxHeartbeats 2000000 in
/-- When the second kernel is entered its table operand holds the gate of the first kernel's two result arrays and
    the launch contents of the five parameter arrays. -/
theorem entry_table (c : Dev nD) :
    W6 m ρ c (Proc.devRef .tc main_v39)
      = gate (W1 m ρ c (Proc.devRef .tc main_v0_0)) (W1 m ρ c (Proc.devRef .tc main_v0_1))
          (m ((c : Thread nD τ).loc main_arg1)) (m ((c : Thread nD τ).loc main_arg2)) (m ((c : Thread nD τ).loc main_arg3))
          (m ((c : Thread nD τ).loc main_arg4)) (m ((c : Thread nD τ).loc main_arg5)) := by
  have e1 : W1 m ρ c (Proc.devRef .tc main_arg1) = m ((c : Thread nD τ).loc main_arg1) := W1_of_ne m ρ c main_arg1 (by decide)
  have e2 : W1 m ρ c (Proc.devRef .tc main_arg2) = m ((c : Thread nD τ).loc main_arg2) := W1_of_ne m ρ c main_arg2 (by decide)
  have e3 : W1 m ρ c (Proc.devRef .tc main_arg3) = m ((c : Thread nD τ).loc main_arg3) := W1_of_ne m ρ c main_arg3 (by decide)
  have e4 : W1 m ρ c (Proc.devRef .tc main_arg4) = m ((c : Thread nD τ).loc main_arg4) := W1_of_ne m ρ c main_arg4 (by decide)
  have e5 : W1 m ρ c (Proc.devRef .tc main_arg5) = m ((c : Thread nD τ).loc main_arg5) := W1_of_ne m ρ c main_arg5 (by decide)
  rw [← e1, ← e2, ← e3, ← e4, ← e5]
  dsimp only [W6, W5, W4, W3, W2, hostOps1, hostOps1_1, hostOps1_2, hostOps1_3, hostOps1_4]
  generalize W1 m ρ c = Y
  after_results_simp
  rfl

/-- When the second kernel is entered x is as launched. -/
theorem entry_x (c : Dev nD) : W6 m ρ c (Proc.devRef .tc main_arg0) = m ((c : Thread nD τ).loc main_arg0) :=
  ((W7_arr m ρ c 0).trans (((dat1 (V6 m ρ) c).arrAt_in 0 rfl _).trans (A_eq1 (V6 m ρ) c 0))).symm.trans (W7_main_arg0 m ρ c)

end Cert.KernelIdeal.Gate

end
-- ==== Proof.PoolSpec.lean ====
/-
  The pooled statistics of an array x[b, t, v, f] over its two trailing axes, as functions on the extended reals:
  the sum and the supremum over (v, f) at each (b, t); the mean as the sum times 2⁻¹⁹ (there are 1024 · 512 = 2¹⁹
  summands); and the rescaling of x by a [b, t] table. Both programs are compared through these.
-/
import Idealize.ShloMosaic.PureOps.Ideal.Laws
import Idealize.ShloMosaic.Lib.ValueIdx

noncomputable section

namespace Cert.PoolSpec

open Idealize.ShloMosaic Idealize.ShloMosaic.ValueIdx

/-- The shape of x and of the [b, t] tables. -/
abbrev SX : Shape := ⟨4, ![64, 5, 1024, 512]⟩
abbrev SP : Shape := ⟨2, ![64, 5]⟩

/-- The (b, t) coordinates of an index of x, as an index of a [b, t] table. -/
abbrev pidx (i : SX.Idx) : SP.Idx := fun a => match a with
  | ⟨0, _⟩ => ⟨(i 0).val, (i 0).isLt⟩
  | ⟨1, _⟩ => ⟨(i 1).val, (i 1).isLt⟩

/-- Σ over (v, f) of x[b, t, v, f]. -/
def poolSum (x : SX.Idx → EReal) (b : Fin 64) (t : Fin 5) : EReal :=
  ∑ v : Fin 1024, ∑ f : Fin 512, x (ix4 b t v f)

/-- sup over (v, f) of x[b, t, v, f]. -/
def poolMax (x : SX.Idx → EReal) (b : Fin 64) (t : Fin 5) : EReal :=
  ⨆ v : Fin 1024, ⨆ f : Fin 512, x (ix4 b t v f)

/-- The table of means: the sum times the f32 word of 2⁻¹⁹. -/
def avgArr (x : SX.Idx → EReal) : SP.Idx → EReal :=
  fun j => poolSum x ⟨(j 0).val, (j 0).isLt⟩ ⟨(j 1).val, (j 1).isLt⟩ * Ideal.ofBits .f32 0x36000000#32

/-- The table of maxima. -/
def maxArr (x : SX.Idx → EReal) : SP.Idx → EReal :=
  fun j => poolMax x ⟨(j 0).val, (j 0).isLt⟩ ⟨(j 1).val, (j 1).isLt⟩

/-- x rescaled entrywise by the table's (b, t) entry. -/
def scaleArr (x : SX.Idx → EReal) (se : SP.Idx → EReal) : SX.Idx → EReal :=
  fun i => x i * se (pidx i)

theorem poolMax_le_iff (x : SX.Idx → EReal) (b : Fin 64) (t : Fin 5) (c : EReal) :
    poolMax x b t ≤ c ↔ ∀ (v : Fin 1024) (f : Fin 512), x (ix4 b t v f) ≤ c := by
  unfold poolMax
  simp only [iSup_le_iff]

end Cert.PoolSpec

end
-- ==== Proof.PoolRef.lean ====
/-
  The reference's two reductions over the trailing axes (v, f) read at an entry (b, t), and the arithmetic that joins
  them to the tiled kernel: the host's sum over two axes is its initial value plus the pooled sum, its maximum the larger
  of its initial value and the pooled supremum; dividing by the f32 word of 2¹⁹ is multiplying by the f32 word of 2⁻¹⁹
  on every extended real; and a sum (or a bound) over v < 1024 splits into eight tiles of 128.
-/
import proofs.«121791_j59004260712650_1_alg».proof.Proof.PoolSpec
import Idealize.ShloMosaic.PureOps.Reduce

noncomputable section

namespace Cert.PoolSpec

open Idealize.ShloMosaic Idealize.ShloMosaic.ValueIdx

/-- The index (b, t, v, f) as a function of the pair (v, f): an embedding. -/
def tailEmb (b : Fin 64) (t : Fin 5) : Fin 1024 × Fin 512 ↪ SX.Idx :=
  ⟨fun p => ix4 b t p.1 p.2, fun p q h => by
    have h2 : p.1 = q.1 := congrFun h 2
    have h3 : p.2 = q.2 := congrFun h 3
    exact Prod.ext h2 h3⟩

/-- The indices whose (b, t) coordinates are those of j are exactly the (b, t, v, f), over all pairs (v, f). -/
theorem filter_drop_two (h' : SX.ReducesTo [2, 3] SP) (j : SP.Idx) :
    Finset.univ.filter (fun i : SX.Idx => h'.drop i = j)
      = Finset.univ.map (tailEmb ⟨(j 0).val, (j 0).isLt⟩ ⟨(j 1).val, (j 1).isLt⟩) := by
  ext i
  simp only [Finset.mem_filter, Finset.mem_univ, true_and, Finset.mem_map, tailEmb, Function.Embedding.coeFn_mk,
    Prod.exists]
  constructor
  · intro h
    refine ⟨i 2, i 3, ?_⟩
    subst h
    funext a
    match a with
    | ⟨0, _⟩ => exact Fin.ext (h'.drop_apply_val_of_eq i 0 0)
    | ⟨1, _⟩ => exact Fin.ext (h'.drop_apply_val_of_eq i 1 1)
    | ⟨2, _⟩ => rfl
    | ⟨3, _⟩ => rfl
  · rintro ⟨v, f, rfl⟩
    funext a
    match a with
    | ⟨0, _⟩ => exact Fin.ext (h'.drop_apply_val_of_eq _ 0 0)
    | ⟨1, _⟩ => exact Fin.ext (h'.drop_apply_val_of_eq _ 1 1)

/-- The host's sum over the axes (v, f), at (b, t): the initial value plus the pooled sum. -/
theorem hostReduceAdd_two (h' : SX.ReducesTo [2, 3] SP) (x : SX.Idx → EReal) (init : EReal) (j : SP.Idx) :
    Ideal.hostReduceAdd h' x init j = init + poolSum x ⟨(j 0).val, (j 0).isLt⟩ ⟨(j 1).val, (j 1).isLt⟩ := by
  unfold Ideal.hostReduceAdd poolSum
  rw [filter_drop_two, Finset.sum_map, Fintype.sum_prod_type]
  rfl

/-- The host's maximum over the axes (v, f), at (b, t): the larger of the initial value and the pooled supremum. -/
theorem hostReduceMax_two {u : Shape} (h' : SX.ReducesTo [2, 3] SP) (x : SX.Idx → EReal) (init : u.Idx → EReal)
    (hu : 0 < u.numel) (j : SP.Idx) :
    Host.reduce (FloatOps.maximumf (F := Ideal) (φ := .f32)) x init h' hu j
      = max (init (Shape.Idx.first hu)) (poolMax x ⟨(j 0).val, (j 0).isLt⟩ ⟨(j 1).val, (j 1).isLt⟩) := by
  rw [Host.reduce_eq_fold, filter_drop_two, Finset.fold_map]
  change Finset.fold max _ _ _ = _
  refine eq_of_forall_ge_iff fun c => ?_
  rw [Finset.fold_max_le, max_le_iff, poolMax_le_iff]
  simp only [Finset.mem_univ, forall_true_left, Prod.forall]
  rfl

/-- The f32 word 0x49000000 is the real 2¹⁹ = 524288. -/
theorem ofBits_pow19 : Ideal.ofBits .f32 0x49000000#32 = ((524288 : ℝ) : EReal) := by
  simp [Ideal.ofBits, Ideal.ieee, -EReal.coe_mul]; norm_num

/-- The f32 word 0x36000000 is the real 2⁻¹⁹ = 1 / 524288. -/
theorem ofBits_inv_pow19 : Ideal.ofBits .f32 0x36000000#32 = ((1 / 524288 : ℝ) : EReal) := by
  simp [Ideal.ofBits, Ideal.ieee, -EReal.coe_mul]; norm_num

/-- Dividing by 2¹⁹ is multiplying by 2⁻¹⁹, on every extended real (the two f32 words are exact). -/
theorem div_pow19 (s : EReal) :
    Ideal.div s (Ideal.ofBits .f32 0x49000000#32) = s * Ideal.ofBits .f32 0x36000000#32 := by
  rw [ofBits_pow19, ofBits_inv_pow19, Ideal.div_coe (by norm_num)]

/-- The f32 word of +0.0 is 0 and the f32 word of -∞ is ⊥. -/
theorem ofBits_neg_inf : Ideal.ofBits .f32 0xFF800000#32 = (⊥ : EReal) := by
  simp [Ideal.ofBits, Ideal.ieee]

/-- A sum over v < 1024 is the sum over eight tiles s of the sums over the tile's 128 entries. The entry of tile s at
    offset r is v = 128 s + r, written modulo 1024 so that it is an index whatever the natural number s. -/
theorem sum_tiles {M : Type*} [AddCommMonoid M] (g : Fin 1024 → M) :
    ∑ v : Fin 1024, g v
      = ∑ s ∈ Finset.range 8, ∑ r : Fin 128, g ⟨(128 * s + r.val) % 1024, Nat.mod_lt _ (by decide)⟩ := by
  rw [Finset.sum_range (fun s => ∑ r : Fin 128, g ⟨(128 * s + r.val) % 1024, Nat.mod_lt _ (by decide)⟩)]
  rw [← Fintype.sum_prod_type (f := fun p : Fin 8 × Fin 128 => g ⟨(128 * p.1.val + p.2.val) % 1024, Nat.mod_lt _ (by decide)⟩)]
  rw [← Equiv.sum_comp (finProdFinEquiv (m := 8) (n := 128)) g]
  refine Finset.sum_congr rfl fun p _ => ?_
  congr 1
  apply Fin.ext
  have h1 := p.1.isLt
  have h2 := p.2.isLt
  simp only [finProdFinEquiv_apply_val]
  rw [Nat.mod_eq_of_lt (by omega)]
  omega

/-- A bound over v < 1024 is the bound over the eight tiles. -/
theorem forall_tiles (P : Fin 1024 → Prop) :
    (∀ v : Fin 1024, P v) ↔ ∀ s, s < 8 → ∀ r : Fin 128, P ⟨(128 * s + r.val) % 1024, Nat.mod_lt _ (by decide)⟩ := by
  constructor
  · intro h s _ r
    exact h _
  · intro h v
    have hv := v.isLt
    have := h (v.val / 128) (by omega) ⟨v.val % 128, Nat.mod_lt _ (by decide)⟩
    have e : (128 * (v.val / 128) + v.val % 128) % 1024 = v.val := by
      rw [Nat.div_add_mod]; exact Nat.mod_eq_of_lt hv
    have e' : (⟨(128 * (v.val / 128) + v.val % 128) % 1024, Nat.mod_lt _ (by decide)⟩ : Fin 1024) = v := Fin.ext e
    rw [← e']
    exact this

end Cert.PoolSpec

end
-- ==== Proof.PoolPieces.lean ====
/-
  The pooling kernel's body, case by case, as values: what each of its three control cases leaves in the two result
  blocks, in terms of the block of x it loaded and (where it reads them) the result blocks' running contents.
  First point of a run over v: the accumulators are reset (to 0 and to -∞) and the block is folded in. Middle points:
  the block is folded into the running contents. Last point: likewise, and the running sum is then scaled.
-/
import proofs.«121791_j59004260712650_1_alg».proof.Proof.Gen.KernelIdeal.Frame
import Idealize.ShloMosaic.Lib.Pipeline.Value
import Idealize.ShloMosaic.Lib.Tactic

noncomputable section

namespace Cert.KernelIdeal.Pool

open Idealize.ShloMosaic Idealize.ShloMosaic.TcCoe Idealize.SL.Sem
open Cert.KernelIdeal Cert.KernelIdeal.Gen

variable {F : FTy → Type} [FloatOps F]

/-- The zero offsets of a rank-2 block, as the constant function. -/
private theorem hz2 : (![0, 0] : Fin 2 → Nat) = fun _ => 0 := funext fun a => by fin_cases a <;> rfl

/-- The zero offsets of a rank-4 block, as the constant function. -/
private theorem hz4 : (![0, 0, 0, 0] : Fin 4 → Nat) = fun _ => 0 := funext fun a => by fin_cases a <;> rfl

/-- First point, running sum: the block's sums added to the zero block. -/
theorem out_A_1 (c : Dev nD) (i : grid0.Coords) (arg2 : Memref sig .tc .vmem S8x5x128x512 .f32) (harg2 : arg2.IsWhole) (arg3 : Memref sig .tc .vmem S8x5 .f32) (harg3 : arg3.IsWhole) (arg4 : Memref sig .tc .vmem S8x5 .f32) (harg4 : arg4.IsWhole) (hc0 : cond0_0 i) (hc1 : ¬cond0_1 i) (x0 : Vec F S8x5x128x512 .f32) :
    out0_A_1 c i arg2 harg2 arg3 harg3 arg4 harg4 hc0 hc1 x0 = k0_pay3 x0 (k0_pay1 (F := F)) := by
  -- two whole-block stores; the later one covers, and its second operand is the earlier store read back
  unfold out0_A_1
  rw [View.read_writes_eq_canon _ _ _ (cover0_A_1 c i arg2 harg2 arg3 harg3 arg4 harg4 hc0 hc1 x0)]
  unfold kernelRun0_A
  dsimp only
  sl_unfold_words
  rw [View.canon_cons_unit_zero (S := S8x5) hz2, View.readCov_unit_zero (S := S8x5) _ hz2]
  simp only [View.readAt_eq_ld, harg2.read_unread, View.ld_unit_zero (S := S8x5x128x512) hz4]

/-- First point, running maximum: the block's maxima against the -∞ block. -/
theorem out_A_2 (c : Dev nD) (i : grid0.Coords) (arg2 : Memref sig .tc .vmem S8x5x128x512 .f32) (harg2 : arg2.IsWhole) (arg3 : Memref sig .tc .vmem S8x5 .f32) (harg3 : arg3.IsWhole) (arg4 : Memref sig .tc .vmem S8x5 .f32) (harg4 : arg4.IsWhole) (hc0 : cond0_0 i) (hc1 : ¬cond0_1 i) (x0 : Vec F S8x5x128x512 .f32) :
    out0_A_2 c i arg2 harg2 arg3 harg3 arg4 harg4 hc0 hc1 x0 = k0_pay4 x0 (k0_pay2 (F := F)) := by
  unfold out0_A_2
  rw [View.read_writes_eq_canon _ _ _ (cover0_A_2 c i arg2 harg2 arg3 harg3 arg4 harg4 hc0 hc1 x0)]
  unfold kernelRun0_A
  dsimp only
  sl_unfold_words
  rw [View.canon_cons_unit_zero (S := S8x5) hz2, View.readCov_unit_zero (S := S8x5) _ hz2]
  simp only [View.readAt_eq_ld, harg2.read_unread, View.ld_unit_zero (S := S8x5x128x512) hz4]

/-- Middle point, running sum. -/
theorem out_B_1 (c : Dev nD) (i : grid0.Coords) (arg2 : Memref sig .tc .vmem S8x5x128x512 .f32) (harg2 : arg2.IsWhole) (arg3 : Memref sig .tc .vmem S8x5 .f32) (harg3 : arg3.IsWhole) (arg4 : Memref sig .tc .vmem S8x5 .f32) (harg4 : arg4.IsWhole) (hc0 : ¬cond0_0 i) (hc1 : ¬cond0_1 i) (x0 : Vec F S8x5x128x512 .f32) (xo1 xo2 : Vec F S8x5 .f32) :
    out0_B_1 c i arg2 harg2 arg3 harg3 arg4 harg4 hc0 hc1 x0 xo1 xo2 = k0_pay3 x0 xo1 := by
  -- one whole-block store, whose operands are the x block and the running contents, both read whole
  unfold out0_B_1
  rw [View.read_writes_eq_canon _ _ _ (cover0_B_1 c i arg2 harg2 arg3 harg3 arg4 harg4 hc0 hc1 x0 xo1 xo2)]
  unfold kernelRun0_B
  dsimp only
  sl_unfold_words
  rw [View.canon_unit_zero (S := S8x5) hz2]
  simp only [View.readAt_eq_ld, harg2.read_unread, harg3.read_unread, View.ld_unit_zero (S := S8x5x128x512) hz4,
    View.ld_unit_zero (S := S8x5) hz2]

/-- Middle point, running maximum. -/
theorem out_B_2 (c : Dev nD) (i : grid0.Coords) (arg2 : Memref sig .tc .vmem S8x5x128x512 .f32) (harg2 : arg2.IsWhole) (arg3 : Memref sig .tc .vmem S8x5 .f32) (harg3 : arg3.IsWhole) (arg4 : Memref sig .tc .vmem S8x5 .f32) (harg4 : arg4.IsWhole) (hc0 : ¬cond0_0 i) (hc1 : ¬cond0_1 i) (x0 : Vec F S8x5x128x512 .f32) (xo1 xo2 : Vec F S8x5 .f32) :
    out0_B_2 c i arg2 harg2 arg3 harg3 arg4 harg4 hc0 hc1 x0 xo1 xo2 = k0_pay4 x0 xo2 := by
  unfold out0_B_2
  rw [View.read_writes_eq_canon _ _ _ (cover0_B_2 c i arg2 harg2 arg3 harg3 arg4 harg4 hc0 hc1 x0 xo1 xo2)]
  unfold kernelRun0_B
  dsimp only
  sl_unfold_words
  rw [View.canon_unit_zero (S := S8x5) hz2]
  simp only [View.readAt_eq_ld, harg2.read_unread, harg4.read_unread, View.ld_unit_zero (S := S8x5x128x512) hz4,
    View.ld_unit_zero (S := S8x5) hz2]

/-- Last point, running sum: folded, then scaled. -/
theorem out_C_1 (c : Dev nD) (i : grid0.Coords) (arg2 : Memref sig .tc .vmem S8x5x128x512 .f32) (harg2 : arg2.IsWhole) (arg3 : Memref sig .tc .vmem S8x5 .f32) (harg3 : arg3.IsWhole) (arg4 : Memref sig .tc .vmem S8x5 .f32) (harg4 : arg4.IsWhole) (hc0 : ¬cond0_0 i) (hc1 : cond0_1 i) (x0 : Vec F S8x5x128x512 .f32) (xo1 xo2 : Vec F S8x5 .f32) :
    out0_C_1 c i arg2 harg2 arg3 harg3 arg4 harg4 hc0 hc1 x0 xo1 xo2 = k0_pay5 (k0_pay3 x0 xo1) := by
  -- the fold's store, then the scaling's store of that store read back; the later covers
  unfold out0_C_1
  rw [View.read_writes_eq_canon _ _ _ (cover0_C_1 c i arg2 harg2 arg3 harg3 arg4 harg4 hc0 hc1 x0 xo1 xo2)]
  unfold kernelRun0_C
  dsimp only
  sl_unfold_words
  rw [View.canon_cons_unit_zero (S := S8x5) hz2, View.readCov_unit_zero (S := S8x5) _ hz2]
  simp only [View.readAt_eq_ld, harg2.read_unread, harg3.read_unread, View.ld_unit_zero (S := S8x5x128x512) hz4,
    View.ld_unit_zero (S := S8x5) hz2]

/-- Last point, running maximum. -/
theorem out_C_2 (c : Dev nD) (i : grid0.Coords) (arg2 : Memref sig .tc .vmem S8x5x128x512 .f32) (harg2 : arg2.IsWhole) (arg3 : Memref sig .tc .vmem S8x5 .f32) (harg3 : arg3.IsWhole) (arg4 : Memref sig .tc .vmem S8x5 .f32) (harg4 : arg4.IsWhole) (hc0 : ¬cond0_0 i) (hc1 : cond0_1 i) (x0 : Vec F S8x5x128x512 .f32) (xo1 xo2 : Vec F S8x5 .f32) :
    out0_C_2 c i arg2 harg2 arg3 harg3 arg4 harg4 hc0 hc1 x0 xo1 xo2 = k0_pay4 x0 xo2 := by
  unfold out0_C_2
  rw [View.read_writes_eq_canon _ _ _ (cover0_C_2 c i arg2 harg2 arg3 harg3 arg4 harg4 hc0 hc1 x0 xo1 xo2)]
  unfold kernelRun0_C
  dsimp only
  sl_unfold_words
  rw [View.canon_unit_zero (S := S8x5) hz2]
  simp only [View.readAt_eq_ld, harg2.read_unread, harg4.read_unread, View.ld_unit_zero (S := S8x5x128x512) hz4,
    View.ld_unit_zero (S := S8x5) hz2]

end Cert.KernelIdeal.Pool

end
-- ==== Proof.PoolPayload.lean ====
/-
  The pooling kernel's arithmetic read at an entry (b, t) of a result block, over the extended reals: the fold-in
  of a block of x into a running sum is the running entry plus the sum of the block's (v, f) entries at (b, t); into a
  running maximum, the larger of the running entry and every (v, f) entry; the final scaling multiplies by the f32
  word of 2⁻¹⁹; the reset blocks are 0 and -∞.
-/
import proofs.«121791_j59004260712650_1_alg».proof.Proof.Gen.KernelIdeal.Skeleton
import Idealize.ShloMosaic.PureOps.Ideal.Laws
import Idealize.ShloMosaic.Lib.ValueIdx
import Idealize.ShloMosaic.Lib.Pipeline.Value
import Mathlib.Data.Finset.Fold

noncomputable section

namespace Cert.KernelIdeal.Pool

open Idealize.ShloMosaic Idealize.ShloMosaic.TcCoe Idealize.SL.Sem Idealize.ShloMosaic.ValueIdx
open Cert.KernelIdeal Cert.KernelIdeal.Gen

/-- The f32 word of -∞ reads as the bottom of the extended reals. -/
theorem ofBits_negInf_f32 : Ideal.ofBits .f32 0xFF800000#32 = (⊥ : EReal) := by
  simp [Ideal.ofBits, Ideal.ieee]

/-- The index the two lane reductions insert at (b, t), then v, then f, is (b, t, v, f). -/
theorem lift_lift_eq (b : Fin 8) (t : Fin 5) (v : Fin 128) (f : Fin 512) :
    reduces_S8x5x128x512_S8x5x128.lift (reduces_S8x5x128_S8x5.lift (ix2 b t) v) f = ix4 b t v f := by
  funext a
  apply Fin.ext
  match a with
  | ⟨0, _⟩ => rfl
  | ⟨1, _⟩ => rfl
  | ⟨2, _⟩ => rfl
  | ⟨3, _⟩ => rfl

/-- The reset block of the running sum is 0. -/
theorem pay1_apply (y : S8x5.Idx) : k0_pay1 (F := Ideal) y = (0 : EReal) := by
  show Ideal.ofBits .f32 0x00000000#32 = (0 : EReal)
  exact Ideal.ofBits_zero_f32

/-- The reset block of the running maximum is below everything (it is -∞). -/
theorem pay2_le (y : S8x5.Idx) (c : EReal) : k0_pay2 (F := Ideal) y ≤ c := by
  show Ideal.ofBits .f32 0xFF800000#32 ≤ c
  rw [ofBits_negInf_f32]
  exact bot_le

/-- Folding a block into the running sum, at (b, t). -/
theorem pay3_apply (x0 : Vec Ideal S8x5x128x512 .f32) (xo : Vec Ideal S8x5 .f32) (b : Fin 8) (t : Fin 5) :
    k0_pay3 (F := Ideal) x0 xo (ix2 b t) = (xo (ix2 b t) : EReal) + ∑ v : Fin 128, ∑ f : Fin 512, (x0 (ix4 b t v f) : EReal) := by
  unfold k0_pay3
  simp only []
  rw [shapeCast_self, addf_apply]
  congr 1
  refine (Ideal.multiReduction_add_single _ _ reduces_S8x5x128_S8x5 _ _ (ix2 b t)).trans ?_
  refine Finset.sum_congr rfl fun v _ => ?_
  refine (Ideal.multiReduction_add_single _ _ reduces_S8x5x128x512_S8x5x128 _ _ _).trans ?_
  refine Finset.sum_congr rfl fun f _ => ?_
  exact congrArg x0 (lift_lift_eq b t v f)

/-- A lane maximum over f from -∞, at (b, t, v): its upper bounds. -/
theorem laneMax_le_iff (x0 : Vec Ideal S8x5x128x512 .f32) (b : Fin 8) (t : Fin 5) (v : Fin 128) (c : EReal) :
    (multiReduction (F := Ideal) .maximumf [3] S8x5x128 x0 0xFF800000#32 reduces_S8x5x128x512_S8x5x128 (.inl rfl) rfl
        (reduces_S8x5x128_S8x5.lift (ix2 b t) v) : EReal) ≤ c
      ↔ ∀ f : Fin 512, (x0 (ix4 b t v f) : EReal) ≤ c := by
  refine (iff_of_eq (congrArg (· ≤ c)
    (Ideal.multiReduction_maximumf_single x0 _ reduces_S8x5x128x512_S8x5x128 _ _ _))).trans ?_
  refine (Finset.fold_max_le c).trans ?_
  constructor
  · rintro ⟨_, h⟩ f
    have hf := h f (Finset.mem_univ _)
    rw [← lift_lift_eq]
    exact hf
  · intro h
    refine ⟨?_, fun f _ => ?_⟩
    · show Ideal.ofBits .f32 0xFF800000#32 ≤ c
      rw [ofBits_negInf_f32]
      exact bot_le
    · exact le_of_eq_of_le (congrArg x0 (lift_lift_eq b t v f)) (h f)

/-- Folding a block into the running maximum, at (b, t): its upper bounds. -/
theorem pay4_le_iff (x0 : Vec Ideal S8x5x128x512 .f32) (xo : Vec Ideal S8x5 .f32) (b : Fin 8) (t : Fin 5) (c : EReal) :
    (k0_pay4 (F := Ideal) x0 xo (ix2 b t) : EReal) ≤ c
      ↔ (xo (ix2 b t) : EReal) ≤ c ∧ ∀ (v : Fin 128) (f : Fin 512), (x0 (ix4 b t v f) : EReal) ≤ c := by
  unfold k0_pay4
  simp only []
  rw [shapeCast_self, maximumf_apply]
  refine max_le_iff.trans (and_congr Iff.rfl ?_)
  refine (iff_of_eq (congrArg (· ≤ c)
    (Ideal.multiReduction_maximumf_single _ _ reduces_S8x5x128_S8x5 _ _ (ix2 b t)))).trans ?_
  refine (Finset.fold_max_le c).trans ?_
  constructor
  · rintro ⟨_, h⟩
    intro (v : Fin (S8x5x128.size 2))
    have hv := h v (Finset.mem_univ v)
    rw [Function.comp_apply] at hv
    exact (laneMax_le_iff x0 b t v c).mp hv
  · intro h
    refine ⟨?_, fun v _ => ?_⟩
    · show Ideal.ofBits .f32 0xFF800000#32 ≤ c
      rw [ofBits_negInf_f32]
      exact bot_le
    · rw [Function.comp_apply]
      exact (laneMax_le_iff x0 b t v c).mpr (h v)

/-- The final scaling. -/
theorem pay5_apply (a : Vec Ideal S8x5 .f32) (y : S8x5.Idx) :
    (k0_pay5 (F := Ideal) a y : EReal) = (a y : EReal) * Ideal.ofBits .f32 0x36000000#32 := by
  show shapeCast S8x5 a shapeCasts_S8x5_S8x5 y * Ideal.ofBits .f32 0x36000000#32 = a y * Ideal.ofBits .f32 0x36000000#32
  rw [shapeCast_self]

end Cert.KernelIdeal.Pool

end
-- ==== Proof.PoolValue.lean ====
/-
  Region 0 (the pooling kernel) read as values at the extended reals: after the run, its first result array
  holds the table of means of the array x it was given and its second the table of maxima.

  The grid is 8 row blocks (eight values of b each) by 8 tiles of v (128 values each), point n = 8 q + s being row
  block q, tile s. The two result blocks of row block q stay in place over its eight points and are written back at the
  last. By induction on the point: after point 8 q + s (s < 7) the first holds, at (b, t), the sum of x[8 q + b, t, v, f]
  over the tiles 0 … s and all f, and the second is bounded by c exactly when all those entries are. At s = 7 the sum
  over all eight tiles, which is the sum over every v, is scaled by 2⁻¹⁹: the mean; the bound is over every v: the maximum.
-/
import proofs.«121791_j59004260712650_1_alg».proof.Proof.Gen.KernelIdeal.Frame
import proofs.«121791_j59004260712650_1_alg».proof.Proof.PoolSpec
import proofs.«121791_j59004260712650_1_alg».proof.Proof.PoolRef
import proofs.«121791_j59004260712650_1_alg».proof.Proof.PoolPieces
import proofs.«121791_j59004260712650_1_alg».proof.Proof.PoolPayload
import Idealize.ShloMosaic.Lib.Pipeline.Value

noncomputable section

namespace Cert.KernelIdeal.Pool

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The array x as the region finds it, and its block at a point, at their literal types. -/
abbrev xarr (c : Dev nD) : Vec Ideal S64x5x1024x512 .f32 := V c main_arg0
abbrev xblk (c : Dev nD) (t : Fin cfg0.N) : Vec Ideal S8x5x128x512 .f32 := iblk0 V c 0 t

/-! ## The three control cases at a point -/

theorem step_A (c : Dev nD) (t : Fin cfg0.N) (h0 : t.val % 8 = 0) (h1 : ¬t.val % 8 = 7) :
    (outsAt0 V c t.val t.isLt).1 = k0_pay3 (xblk V c t) (k0_pay1 (F := Ideal))
      ∧ (outsAt0 V c t.val t.isLt).2 = k0_pay4 (xblk V c t) (k0_pay2 (F := Ideal)) := by
  rw [outsAt0_A V c t h0 h1]
  dsimp only
  exact ⟨out_A_1 c (grid0.coords t) (ms0_0 t) (hs0_0 t) (ms0_1 t) (hs0_1 t) (ms0_2 t) (hs0_2 t) ((hcond0_0 t).mpr h0) (fun h => h1 ((hcond0_1 t).mp h)) (iblk0 V c 0 t),
    out_A_2 c (grid0.coords t) (ms0_0 t) (hs0_0 t) (ms0_1 t) (hs0_1 t) (ms0_2 t) (hs0_2 t) ((hcond0_0 t).mpr h0) (fun h => h1 ((hcond0_1 t).mp h)) (iblk0 V c 0 t)⟩

theorem step_B (c : Dev nD) (t : Fin cfg0.N) (h0 : ¬t.val % 8 = 0) (h1 : ¬t.val % 8 = 7) :
    (outsAt0 V c t.val t.isLt).1 = k0_pay3 (xblk V c t) (outsAt0 V c (t.val - 1) (Nat.lt_of_le_of_lt (Nat.sub_le _ _) t.isLt)).1
      ∧ (outsAt0 V c t.val t.isLt).2 = k0_pay4 (xblk V c t) (outsAt0 V c (t.val - 1) (Nat.lt_of_le_of_lt (Nat.sub_le _ _) t.isLt)).2 := by
  rw [outsAt0_B V c t h0 h1]
  dsimp only
  exact ⟨out_B_1 c (grid0.coords t) (ms0_0 t) (hs0_0 t) (ms0_1 t) (hs0_1 t) (ms0_2 t) (hs0_2 t) (fun h => h0 ((hcond0_0 t).mp h)) (fun h => h1 ((hcond0_1 t).mp h)) (iblk0 V c 0 t) (outsAt0 V c (t.val - 1) (Nat.lt_of_le_of_lt (Nat.sub_le _ _) t.isLt)).1 (outsAt0 V c (t.val - 1) (Nat.lt_of_le_of_lt (Nat.sub_le _ _) t.isLt)).2,
    out_B_2 c (grid0.coords t) (ms0_0 t) (hs0_0 t) (ms0_1 t) (hs0_1 t) (ms0_2 t) (hs0_2 t) (fun h => h0 ((hcond0_0 t).mp h)) (fun h => h1 ((hcond0_1 t).mp h)) (iblk0 V c 0 t) (outsAt0 V c (t.val - 1) (Nat.lt_of_le_of_lt (Nat.sub_le _ _) t.isLt)).1 (outsAt0 V c (t.val - 1) (Nat.lt_of_le_of_lt (Nat.sub_le _ _) t.isLt)).2⟩

theorem step_C (c : Dev nD) (t : Fin cfg0.N) (h0 : ¬t.val % 8 = 0) (h1 : t.val % 8 = 7) :
    (outsAt0 V c t.val t.isLt).1 = k0_pay5 (k0_pay3 (xblk V c t) (outsAt0 V c (t.val - 1) (Nat.lt_of_le_of_lt (Nat.sub_le _ _) t.isLt)).1)
      ∧ (outsAt0 V c t.val t.isLt).2 = k0_pay4 (xblk V c t) (outsAt0 V c (t.val - 1) (Nat.lt_of_le_of_lt (Nat.sub_le _ _) t.isLt)).2 := by
  rw [outsAt0_C V c t h0 h1]
  dsimp only
  exact ⟨out_C_1 c (grid0.coords t) (ms0_0 t) (hs0_0 t) (ms0_1 t) (hs0_1 t) (ms0_2 t) (hs0_2 t) (fun h => h0 ((hcond0_0 t).mp h)) ((hcond0_1 t).mpr h1) (iblk0 V c 0 t) (outsAt0 V c (t.val - 1) (Nat.lt_of_le_of_lt (Nat.sub_le _ _) t.isLt)).1 (outsAt0 V c (t.val - 1) (Nat.lt_of_le_of_lt (Nat.sub_le _ _) t.isLt)).2,
    out_C_2 c (grid0.coords t) (ms0_0 t) (hs0_0 t) (ms0_1 t) (hs0_1 t) (ms0_2 t) (hs0_2 t) (fun h => h0 ((hcond0_0 t).mp h)) ((hcond0_1 t).mpr h1) (iblk0 V c 0 t) (outsAt0 V c (t.val - 1) (Nat.lt_of_le_of_lt (Nat.sub_le _ _) t.isLt)).1 (outsAt0 V c (t.val - 1) (Nat.lt_of_le_of_lt (Nat.sub_le _ _) t.isLt)).2⟩

/-! ## Where a point's blocks sit -/

/-- The printed index maps over the grid: point n reads row block n / 8, tile n % 8 of x, and writes row block n / 8
    of each table. -/
theorem idx_facts : ∀ t : Fin cfg0.N, win0_0.index t (0 : Fin 4) = t.val / 8 ∧ win0_0.index t (1 : Fin 4) = 0
    ∧ win0_0.index t (2 : Fin 4) = t.val % 8 ∧ win0_0.index t (3 : Fin 4) = 0
    ∧ win0_1.index t (0 : Fin 2) = t.val / 8 ∧ win0_1.index t (1 : Fin 2) = 0
    ∧ win0_2.index t (0 : Fin 2) = t.val / 8 ∧ win0_2.index t (1 : Fin 2) = 0 :=
  (by decide +kernel : ∀ t : Fin grid0.N, _)

/-- x at row block q, tile s, offsets b and v: the two coordinates are taken modulo their extents, so that the entry
    is defined for every natural q and s (inside the grid the remainders change nothing). -/
def xat (X : Vec Ideal S64x5x1024x512 .f32) (q s : ℕ) (b : Fin 8) (tt : Fin 5) (v : Fin 128) (f : Fin 512) : EReal :=
  X (ix4 ⟨(8 * q + b.val) % 64, Nat.mod_lt _ (by decide)⟩ tt ⟨(128 * s + v.val) % 1024, Nat.mod_lt _ (by decide)⟩ f)

/-- The block of x at point t, at (b, t, v, f), is x at row block t / 8, tile t % 8. -/
theorem xblk_apply (c : Dev nD) (t : Fin cfg0.N) (b : Fin 8) (tt : Fin 5) (v : Fin 128) (f : Fin 512) :
    (xblk V c t (ix4 b tt v f) : EReal) = xat (xarr V c) (t.val / 8) (t.val % 8) b tt v f := by
  obtain ⟨e0, e1, e2, e3, -⟩ := idx_facts t
  have hN : t.val < 64 := lt_of_lt_of_eq t.isLt (show cfg0.N = 64 from N_0)
  unfold xat xblk xarr iblk0
  rw [View.read_apply]
  show V c main_arg0 _ = V c main_arg0 _
  congr 1
  funext a; apply Fin.ext
  match a with
  | ⟨0, _⟩ => show win0_0.index t (0 : Fin 4) * 8 + 1 * b.val = (8 * (t.val / 8) + b.val) % 64; have := b.isLt; omega
  | ⟨1, _⟩ => show win0_0.index t (1 : Fin 4) * 5 + 1 * tt.val = tt.val; omega
  | ⟨2, _⟩ => show win0_0.index t (2 : Fin 4) * 128 + 1 * v.val = (128 * (t.val % 8) + v.val) % 1024; have := v.isLt; omega
  | ⟨3, _⟩ => show win0_0.index t (3 : Fin 4) * 512 + 1 * f.val = f.val; omega

/-! ## The running contents, by induction on the point -/

/-- After point n = 8 q + s with s < 7 the running sum at (b, t) is the sum of x over the tiles 0 … s of row block q. -/
theorem sum_inv (c : Dev nD) : ∀ (n : ℕ) (h : n < cfg0.N), ¬n % 8 = 7 → ∀ (b : Fin 8) (tt : Fin 5),
    ((outsAt0 V c n h).1 (ix2 b tt) : EReal)
      = ∑ s ∈ Finset.range (n % 8 + 1), ∑ v : Fin 128, ∑ f : Fin 512, xat (xarr V c) (n / 8) s b tt v f
  | 0, h, _, b, tt => by
    have hs := (step_A V c ⟨0, h⟩ rfl (show ¬(0 : ℕ) % 8 = 7 by decide)).1
    have hs' : (outsAt0 V c 0 h).1 = k0_pay3 (xblk V c ⟨0, h⟩) (k0_pay1 (F := Ideal)) := hs
    rw [hs', pay3_apply, pay1_apply, zero_add]
    show _ = ∑ s ∈ Finset.range 1, _
    rw [Finset.sum_range_one]
    refine Finset.sum_congr rfl fun v _ => Finset.sum_congr rfl fun f _ => ?_
    exact xblk_apply V c ⟨0, h⟩ b tt v f
  | n + 1, h, h7, b, tt => by
    have hN : n + 1 < 64 := lt_of_lt_of_eq h (show cfg0.N = 64 from N_0)
    by_cases h0 : (n + 1) % 8 = 0
    · have hs : (outsAt0 V c (n + 1) h).1 = k0_pay3 (xblk V c ⟨n + 1, h⟩) (k0_pay1 (F := Ideal)) :=
        (step_A V c ⟨n + 1, h⟩ h0 h7).1
      rw [hs, pay3_apply, pay1_apply, zero_add, h0]
      show _ = ∑ s ∈ Finset.range 1, _
      rw [Finset.sum_range_one]
      refine Finset.sum_congr rfl fun v _ => Finset.sum_congr rfl fun f _ => ?_
      rw [xblk_apply V c ⟨n + 1, h⟩ b tt v f]
      show xat (xarr V c) ((n + 1) / 8) ((n + 1) % 8) b tt v f = _
      rw [h0]
    · have hs : (outsAt0 V c (n + 1) h).1 = k0_pay3 (xblk V c ⟨n + 1, h⟩) (outsAt0 V c n (Nat.lt_of_succ_lt h)).1 :=
        (step_B V c ⟨n + 1, h⟩ h0 h7).1
      have ih := sum_inv c n (Nat.lt_of_succ_lt h) (by omega) b tt
      have e1 : (n + 1) % 8 = n % 8 + 1 := by omega
      have e2 : (n + 1) / 8 = n / 8 := by omega
      rw [hs, pay3_apply, ih, e1, e2, Finset.sum_range_succ _ (n % 8 + 1)]
      congr 1
      refine Finset.sum_congr rfl fun v _ => Finset.sum_congr rfl fun f _ => ?_
      rw [xblk_apply V c ⟨n + 1, h⟩ b tt v f]
      show xat (xarr V c) ((n + 1) / 8) ((n + 1) % 8) b tt v f = _
      rw [e1, e2]

/-- After point n = 8 q + s the running maximum at (b, t) is bounded by cc exactly when every entry of x in the tiles
    0 … s of row block q is. -/
theorem max_inv (c : Dev nD) : ∀ (n : ℕ) (h : n < cfg0.N) (b : Fin 8) (tt : Fin 5) (cc : EReal),
    ((outsAt0 V c n h).2 (ix2 b tt) : EReal) ≤ cc
      ↔ ∀ s, s < n % 8 + 1 → ∀ (v : Fin 128) (f : Fin 512), xat (xarr V c) (n / 8) s b tt v f ≤ cc
  | 0, h, b, tt, cc => by
    have hs : (outsAt0 V c 0 h).2 = k0_pay4 (xblk V c ⟨0, h⟩) (k0_pay2 (F := Ideal)) :=
      (step_A V c ⟨0, h⟩ rfl (show ¬(0 : ℕ) % 8 = 7 by decide)).2
    rw [hs, pay4_le_iff]
    constructor
    · rintro ⟨-, hx⟩ s hs' v f
      obtain rfl : s = 0 := by omega
      have := hx v f
      rwa [xblk_apply V c ⟨0, h⟩ b tt v f] at this
    · intro hx
      refine ⟨pay2_le _ _, fun v f => ?_⟩
      rw [xblk_apply V c ⟨0, h⟩ b tt v f]
      exact hx 0 (by omega) v f
  | n + 1, h, b, tt, cc => by
    have hN : n + 1 < 64 := lt_of_lt_of_eq h (show cfg0.N = 64 from N_0)
    by_cases h0 : (n + 1) % 8 = 0
    · have hs : (outsAt0 V c (n + 1) h).2 = k0_pay4 (xblk V c ⟨n + 1, h⟩) (k0_pay2 (F := Ideal)) :=
        (step_A V c ⟨n + 1, h⟩ h0 (show ¬(n + 1) % 8 = 7 by omega)).2
      rw [hs, pay4_le_iff]
      constructor
      · rintro ⟨-, hx⟩ s hs' v f
        obtain rfl : s = 0 := by omega
        have := hx v f
        rw [xblk_apply V c ⟨n + 1, h⟩ b tt v f] at this
        have e : ((⟨n + 1, h⟩ : Fin cfg0.N).val % 8) = 0 := h0
        rwa [e] at this
      · intro hx
        refine ⟨pay2_le _ _, fun v f => ?_⟩
        rw [xblk_apply V c ⟨n + 1, h⟩ b tt v f]
        have e : ((⟨n + 1, h⟩ : Fin cfg0.N).val % 8) = 0 := h0
        rw [e]
        exact hx 0 (by omega) v f
    · have hs : (outsAt0 V c (n + 1) h).2 = k0_pay4 (xblk V c ⟨n + 1, h⟩) (outsAt0 V c n (Nat.lt_of_succ_lt h)).2 := by
        by_cases h7 : (n + 1) % 8 = 7
        · exact (step_C V c ⟨n + 1, h⟩ h0 h7).2
        · exact (step_B V c ⟨n + 1, h⟩ h0 h7).2
      have ih := max_inv c n (Nat.lt_of_succ_lt h) b tt cc
      have e1 : (n + 1) % 8 = n % 8 + 1 := by omega
      have e2 : (n + 1) / 8 = n / 8 := by omega
      rw [hs, pay4_le_iff, ih, e1, e2]
      constructor
      · rintro ⟨hp, hx⟩ s hs' v f
        by_cases hlt : s < n % 8 + 1
        · exact hp s hlt v f
        · obtain rfl : s = n % 8 + 1 := by omega
          have := hx v f
          rw [xblk_apply V c ⟨n + 1, h⟩ b tt v f] at this
          have ea : ((⟨n + 1, h⟩ : Fin cfg0.N).val % 8) = n % 8 + 1 := e1
          have eb : ((⟨n + 1, h⟩ : Fin cfg0.N).val / 8) = n / 8 := e2
          rwa [ea, eb] at this
      · intro hx
        refine ⟨fun s hs' v f => hx s (by omega) v f, fun v f => ?_⟩
        rw [xblk_apply V c ⟨n + 1, h⟩ b tt v f]
        have ea : ((⟨n + 1, h⟩ : Fin cfg0.N).val % 8) = n % 8 + 1 := e1
        have eb : ((⟨n + 1, h⟩ : Fin cfg0.N).val / 8) = n / 8 := e2
        rw [ea, eb]
        exact hx (n % 8 + 1) (by omega) v f

/-! ## What the last point of a row block writes back, and the arrays after the run -/

/-- Where an entry (b, t) of the block written back at point n sits in a table: row 8 (n / 8) + b, column t. -/
theorem emb1 (t : Fin cfg0.N) (b : Fin 8) (tt : Fin 5) :
    ((cfg0.win 1).blk t).view.emb (ix2 b tt)
      = (ix2 (⟨(8 * (t.val / 8) + b.val) % 64, Nat.mod_lt _ (by decide)⟩ : Fin 64) tt : S64x5.Idx) := by
  obtain ⟨-, -, -, -, e4, e5, -⟩ := idx_facts t
  have hN : t.val < 64 := lt_of_lt_of_eq t.isLt (show cfg0.N = 64 from N_0)
  funext a; apply Fin.ext
  match a with
  | ⟨0, _⟩ => show win0_1.index t (0 : Fin 2) * 8 + 1 * b.val = (8 * (t.val / 8) + b.val) % 64; have := b.isLt; omega
  | ⟨1, _⟩ => show win0_1.index t (1 : Fin 2) * 5 + 1 * tt.val = tt.val; omega

theorem emb2 (t : Fin cfg0.N) (b : Fin 8) (tt : Fin 5) :
    ((cfg0.win 2).blk t).view.emb (ix2 b tt)
      = (ix2 (⟨(8 * (t.val / 8) + b.val) % 64, Nat.mod_lt _ (by decide)⟩ : Fin 64) tt : S64x5.Idx) := by
  obtain ⟨-, -, -, -, -, -, e6, e7⟩ := idx_facts t
  have hN : t.val < 64 := lt_of_lt_of_eq t.isLt (show cfg0.N = 64 from N_0)
  funext a; apply Fin.ext
  match a with
  | ⟨0, _⟩ => show win0_2.index t (0 : Fin 2) * 8 + 1 * b.val = (8 * (t.val / 8) + b.val) % 64; have := b.isLt; omega
  | ⟨1, _⟩ => show win0_2.index t (1 : Fin 2) * 5 + 1 * tt.val = tt.val; omega

/-- The block of means written back at the last point of a row block is that block of the table of means: the eight
    tiles' sums add up to the sum over every v, and the kernel scales it by 2⁻¹⁹. -/
theorem flushed1_eq (c : Dev nD) (t : Fin cfg0.N) (hf : (cfg0.win 1).flush t = true) :
    (dat0 V c).flushed 1 t = ((cfg0.win 1).blk t).view.read (Elt Ideal) (Cert.PoolSpec.avgArr (xarr V c)) := by
  have h7 : t.val % 8 = 7 := (flush0_1 t).mp hf
  have hN : t.val < 64 := lt_of_lt_of_eq t.isLt (show cfg0.N = 64 from N_0)
  show (cfg0.win 1).cut (grid0.coords t) ((dat0 V c).after 1 t) = _
  rw [after0_1]
  funext j
  obtain ⟨b, tt, rfl⟩ : ∃ (b : Fin 8) (tt : Fin 5), j = ix2 b tt := ⟨j 0, j 1, eq_ix2 j⟩
  rw [View.read_apply, emb1]
  show ((outsAt0 V c t.val t.isLt).1 (ix2 b tt) : EReal) = _
  rw [(step_C V c t (by omega) h7).1, pay5_apply, pay3_apply,
    sum_inv V c (t.val - 1) (Nat.lt_of_le_of_lt (Nat.sub_le _ _) t.isLt) (by omega) b tt]
  have e1 : (t.val - 1) % 8 + 1 = 7 := by omega
  have e2 : (t.val - 1) / 8 = t.val / 8 := by omega
  rw [e1, e2]
  have hx : ∀ (v : Fin 128) (f : Fin 512), (xblk V c t (ix4 b tt v f) : EReal) = xat (xarr V c) (t.val / 8) 7 b tt v f := fun v f => by
    rw [xblk_apply V c t b tt v f, h7]
  simp only [hx]
  rw [← Finset.sum_range_succ (fun s => ∑ v : Fin 128, ∑ f : Fin 512, xat (xarr V c) (t.val / 8) s b tt v f) 7]
  unfold Cert.PoolSpec.avgArr Cert.PoolSpec.poolSum
  congr 1
  exact (Cert.PoolSpec.sum_tiles fun v : Fin 1024 => ∑ f : Fin 512,
    (xarr V c) (ix4 (⟨(8 * (t.val / 8) + b.val) % 64, Nat.mod_lt _ (by decide)⟩ : Fin 64) tt v f)).symm

/-- The block of maxima written back at the last point of a row block is that block of the table of maxima: both are
    bounded by the same numbers. -/
theorem flushed2_eq (c : Dev nD) (t : Fin cfg0.N) (hf : (cfg0.win 2).flush t = true) :
    (dat0 V c).flushed 2 t = ((cfg0.win 2).blk t).view.read (Elt Ideal) (Cert.PoolSpec.maxArr (xarr V c)) := by
  have h7 : t.val % 8 = 7 := (flush0_2 t).mp hf
  have hN : t.val < 64 := lt_of_lt_of_eq t.isLt (show cfg0.N = 64 from N_0)
  show (cfg0.win 2).cut (grid0.coords t) ((dat0 V c).after 2 t) = _
  rw [after0_2]
  funext j
  obtain ⟨b, tt, rfl⟩ : ∃ (b : Fin 8) (tt : Fin 5), j = ix2 b tt := ⟨j 0, j 1, eq_ix2 j⟩
  rw [View.read_apply, emb2]
  show ((outsAt0 V c t.val t.isLt).2 (ix2 b tt) : EReal)
    = Cert.PoolSpec.poolMax (xarr V c) (⟨(8 * (t.val / 8) + b.val) % 64, Nat.mod_lt _ (by decide)⟩ : Fin 64) tt
  refine eq_of_forall_ge_iff fun (cc : EReal) => ?_
  rw [max_inv V c t.val t.isLt b tt cc, Cert.PoolSpec.poolMax_le_iff]
  rw [Cert.PoolSpec.forall_tiles (fun v : Fin 1024 => ∀ f : Fin 512,
    (xarr V c) (ix4 (⟨(8 * (t.val / 8) + b.val) % 64, Nat.mod_lt _ (by decide)⟩ : Fin 64) tt v f) ≤ cc)]
  rw [h7]
  exact Iff.rfl

/-- An index of a table is in point t's block when its row is in the block's eight rows. -/
theorem mem_blk1 (t : Fin cfg0.N) (i : S64x5.Idx) :
    i ∈ ((cfg0.win 1).blk t).view.set ↔ ∀ a : Fin 2, win0_1.index t a * S8x5.size a ≤ (i a).val ∧ (i a).val < win0_1.index t a * S8x5.size a + S8x5.size a := by
  show i ∈ ((View.whole main_v0_0).slice (win0_1.rect t)).set ↔ _
  rw [View.set_slice_whole, Rect.mem_set_unit]
  exact Iff.rfl

theorem mem_blk2 (t : Fin cfg0.N) (i : S64x5.Idx) :
    i ∈ ((cfg0.win 2).blk t).view.set ↔ ∀ a : Fin 2, win0_2.index t a * S8x5.size a ≤ (i a).val ∧ (i a).val < win0_2.index t a * S8x5.size a + S8x5.size a := by
  show i ∈ ((View.whole main_v0_1).slice (win0_2.rect t)).set ↔ _
  rw [View.set_slice_whole, Rect.mem_set_unit]
  exact Iff.rfl

/-- The last point of the row block that holds row i₀. -/
def lastPt (i : S64x5.Idx) : Fin cfg0.N :=
  ⟨8 * ((i 0).val / 8) + 7, by have : (i 0).val < 64 := (i 0).isLt; rw [show cfg0.N = 64 from N_0]; omega⟩

/-- After region 0 its first result array is the table of means of the array the region read. -/
theorem arr_avg (c : Dev nD) : (dat0 V c).arrAt 1 cfg0.N = Cert.PoolSpec.avgArr (V c main_arg0) :=
  (dat0 V c).arrAt_eq_of_cover 1 (Cert.PoolSpec.avgArr (xarr V c)) (flushed1_eq V c) fun i => by
    have hi0 : (i 0).val < 64 := (i 0).isLt
    have hi1 : (i 1).val < 5 := (i 1).isLt
    obtain ⟨-, -, -, -, e4, e5, -⟩ := idx_facts (lastPt i)
    have hv : (lastPt i).val = 8 * ((i 0).val / 8) + 7 := rfl
    refine ⟨lastPt i, (flush0_1 _).mpr (by rw [hv]; omega), ?_⟩
    rw [mem_blk1]
    intro a
    match a with
    | ⟨0, _⟩ => show win0_1.index (lastPt i) (0 : Fin 2) * 8 ≤ (i 0).val ∧ (i 0).val < win0_1.index (lastPt i) (0 : Fin 2) * 8 + 8; rw [e4, hv]; omega
    | ⟨1, _⟩ => show win0_1.index (lastPt i) (1 : Fin 2) * 5 ≤ (i 1).val ∧ (i 1).val < win0_1.index (lastPt i) (1 : Fin 2) * 5 + 5; rw [e5]; omega

/-- After region 0 its second result array is the table of maxima of the array the region read. -/
theorem arr_max (c : Dev nD) : (dat0 V c).arrAt 2 cfg0.N = Cert.PoolSpec.maxArr (V c main_arg0) :=
  (dat0 V c).arrAt_eq_of_cover 2 (Cert.PoolSpec.maxArr (xarr V c)) (flushed2_eq V c) fun i => by
    have hi0 : (i 0).val < 64 := (i 0).isLt
    have hi1 : (i 1).val < 5 := (i 1).isLt
    obtain ⟨-, -, -, -, -, -, e6, e7⟩ := idx_facts (lastPt i)
    have hv : (lastPt i).val = 8 * ((i 0).val / 8) + 7 := rfl
    refine ⟨lastPt i, (flush0_2 _).mpr (by rw [hv]; omega), ?_⟩
    rw [mem_blk2]
    intro a
    match a with
    | ⟨0, _⟩ => show win0_2.index (lastPt i) (0 : Fin 2) * 8 ≤ (i 0).val ∧ (i 0).val < win0_2.index (lastPt i) (0 : Fin 2) * 8 + 8; rw [e6, hv]; omega
    | ⟨1, _⟩ => show win0_2.index (lastPt i) (1 : Fin 2) * 5 ≤ (i 1).val ∧ (i 1).val < win0_2.index (lastPt i) (1 : Fin 2) * 5 + 5; rw [e7]; omega

end Cert.KernelIdeal.Pool

end
-- ==== Proof.ScaleValue.lean ====
/-
  Region 1 (the rescaling kernel) read as values at the extended reals: after the run, its result array is the
  array x it was given, each entry multiplied by the (b, t) entry of the table it was given.
-/
import proofs.«121791_j59004260712650_1_alg».proof.Proof.Gen.KernelIdeal.Frame
import proofs.«121791_j59004260712650_1_alg».proof.Proof.PoolSpec
import Idealize.ShloMosaic.Lib.Pipeline.Value

noncomputable section

namespace Cert.KernelIdeal.Scale

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The zero offsets of a rank-4 and of a rank-2 whole-buffer access, as constant functions. -/
theorem zero4 : (![0, 0, 0, 0] : Fin 4 → Nat) = fun _ => 0 := funext fun a => by fin_cases a <;> rfl
theorem zero2 : (![0, 0] : Fin 2 → Nat) = fun _ => 0 := funext fun a => by fin_cases a <;> rfl

/-- The body's product at an index (b, u, r, f) of the block: the x-block's entry there times the table block's
    entry at (b, u) — the table block is viewed as [8, 5, 1, 1] and repeated along the two trailing axes. -/
theorem pay_apply (v0 : Vec Ideal S8x5 .f32) (v5 : Vec Ideal S8x5x64x512 .f32) (b : Fin 8) (u : Fin 5) (r : Fin 64) (f : Fin 512) :
    k1_pay1 (F := Ideal) v0 v5 (ix4 b u r f) = v5 (ix4 b u r f) * v0 (ix2 b u) := by
  unfold k1_pay1
  simp only [shapeCast_self]
  rw [mulf_apply]
  congr 1
  refine (broadcastTo_apply _ _ (ix4 b u r f) (ix4 b u (0 : Fin 1) (0 : Fin 1)) ?_).trans ?_
  · intro a
    match a with
    | ⟨0, _⟩ => rfl
    | ⟨1, _⟩ => rfl
    | ⟨2, _⟩ => rfl
    | ⟨3, _⟩ => rfl
  · refine shapeCast_apply _ _ (ix4 b u (0 : Fin 1) (0 : Fin 1)) (ix2 b u) ?_
    rw [Shape.rowMajor_val_two, Shape.rowMajor_val_four]
    show b.val * 5 + u.val = ((b.val * 5 + u.val) * 1 + 0) * 1 + 0
    omega

/-- The three printed index maps, decided over the 128 grid points: the x window moves with the result window on every
    axis; the table window's first block index is the result window's and its second is 0; the result window's block
    indices on the axes (1) and (3) are 0, and those on (0) and (2) stay below 8 and 16. -/
theorem idx_facts : ∀ t : Fin cfg1.N,
    win1_0.index t (0 : Fin 4) = win1_2.index t (0 : Fin 4)
    ∧ win1_0.index t (1 : Fin 4) = win1_2.index t (1 : Fin 4)
    ∧ win1_0.index t (2 : Fin 4) = win1_2.index t (2 : Fin 4)
    ∧ win1_0.index t (3 : Fin 4) = win1_2.index t (3 : Fin 4)
    ∧ win1_1.index t (0 : Fin 2) = win1_2.index t (0 : Fin 4)
    ∧ win1_1.index t (1 : Fin 2) = 0
    ∧ win1_2.index t (1 : Fin 4) = 0
    ∧ win1_2.index t (3 : Fin 4) = 0
    ∧ win1_2.index t (0 : Fin 4) ≤ 7
    ∧ win1_2.index t (2 : Fin 4) ≤ 15 :=
  (by decide +kernel : ∀ t : Fin grid1.N, _)

/-- Every block (q0, 0, q2, 0) of the result is some point's. -/
theorem idx_onto : ∀ (q0 : Fin 8) (q2 : Fin 16), ∃ t : Fin cfg1.N, win1_2.index t = ![q0.val, 0, q2.val, 0] :=
  (by decide +kernel : ∀ (q0 : Fin 8) (q2 : Fin 16), ∃ t : Fin grid1.N, win1_2.index t = ![q0.val, 0, q2.val, 0])

/-- The x window's block at a point, read at (b, u, r, f), is x at the array index the result window's block puts
    (b, u, r, f) at. -/
theorem xblk_apply (c : Dev nD) (t : Fin cfg1.N) (b : Fin 8) (u : Fin 5) (r : Fin 64) (f : Fin 512) :
    (iblk1 V c 0 t : Vec Ideal S8x5x64x512 .f32) (ix4 b u r f)
      = (V c main_arg0 : S64x5x1024x512.Idx → EReal) (((cfg1.win 2).blk t).view.emb (ix4 b u r f)) := by
  obtain ⟨e0, e1, e2, e3, -⟩ := idx_facts t
  unfold iblk1
  rw [View.read_apply]
  show (V c main_arg0 : S64x5x1024x512.Idx → EReal) (((cfg1.win 0).blk t).view.emb (ix4 b u r f)) = _
  refine congrArg _ (funext fun a => Fin.ext ?_)
  match a with
  | ⟨0, _⟩ => show win1_0.index t (0 : Fin 4) * 8 + 1 * b.val = win1_2.index t (0 : Fin 4) * 8 + 1 * b.val; omega
  | ⟨1, _⟩ => show win1_0.index t (1 : Fin 4) * 5 + 1 * u.val = win1_2.index t (1 : Fin 4) * 5 + 1 * u.val; omega
  | ⟨2, _⟩ => show win1_0.index t (2 : Fin 4) * 64 + 1 * r.val = win1_2.index t (2 : Fin 4) * 64 + 1 * r.val; omega
  | ⟨3, _⟩ => show win1_0.index t (3 : Fin 4) * 512 + 1 * f.val = win1_2.index t (3 : Fin 4) * 512 + 1 * f.val; omega

/-- The table window's block at a point, read at (b, u), is the table at the first two coordinates of the array index the
    result window's block puts (b, u, r, f) at. -/
theorem tblk_apply (c : Dev nD) (t : Fin cfg1.N) (b : Fin 8) (u : Fin 5) (r : Fin 64) (f : Fin 512) :
    (iblk1 V c 1 t : Vec Ideal S8x5 .f32) (ix2 b u)
      = (V c main_v39 : S64x5.Idx → EReal) (Cert.PoolSpec.pidx (((cfg1.win 2).blk t).view.emb (ix4 b u r f))) := by
  obtain ⟨-, -, -, -, e4, e5, e6, -⟩ := idx_facts t
  unfold iblk1
  rw [View.read_apply]
  show (V c main_v39 : S64x5.Idx → EReal) (((cfg1.win 1).blk t).view.emb (ix2 b u)) = _
  refine congrArg _ (funext fun a => Fin.ext ?_)
  match a with
  | ⟨0, _⟩ => show win1_1.index t (0 : Fin 2) * 8 + 1 * b.val = win1_2.index t (0 : Fin 4) * 8 + 1 * b.val; omega
  | ⟨1, _⟩ => show win1_1.index t (1 : Fin 2) * 5 + 1 * u.val = win1_2.index t (1 : Fin 4) * 5 + 1 * u.val; omega

/-- What a point writes back is its block of x rescaled by the table. -/
theorem flushed_eq (c : Dev nD) (t : Fin cfg1.N) :
    (dat1 V c).flushed 2 t
      = ((cfg1.win 2).blk t).view.read (Elt Ideal) (Cert.PoolSpec.scaleArr (V c main_arg0) (V c main_v39)) := by
  show (cfg1.win 2).cut (grid1.coords t) ((dat1 V c).after 2 t) = _
  rw [after1_2]
  unfold out1_2
  rw [View.canon_unit_zero zero4]
  simp only [View.ld_unit_zero (S := S8x5x64x512) zero4, View.ld_unit_zero (S := S8x5) zero2]
  funext j
  obtain ⟨b, u, r, f, rfl⟩ : ∃ (b : Fin 8) (u : Fin 5) (r : Fin 64) (f : Fin 512), j = ix4 b u r f :=
    ⟨j 0, j 1, j 2, j 3, eq_ix4 j⟩
  rw [View.read_apply]
  refine (pay_apply (iblk1 V c 1 t) (iblk1 V c 0 t) b u r f).trans ?_
  rw [xblk_apply V c t b u r f, tblk_apply V c t b u r f]
  rfl

/-- An index of the array is in a point's block iff each coordinate is in the block's range on its axis. -/
theorem mem_blk (t : Fin cfg1.N) (i : S64x5x1024x512.Idx) :
    i ∈ ((cfg1.win 2).blk t).view.set ↔ ∀ a : Fin 4, win1_2.index t a * S8x5x64x512.size a ≤ (i a).val
      ∧ (i a).val < win1_2.index t a * S8x5x64x512.size a + S8x5x64x512.size a := by
  show i ∈ ((View.whole main_v40).slice (win1_2.rect t)).set ↔ _
  rw [View.set_slice_whole, Rect.mem_set_unit]
  exact Iff.rfl

/-- Every index of the array is in the block of the point whose block index is (i₀ / 8, 0, i₂ / 64, 0). -/
theorem cover (i : S64x5x1024x512.Idx) :
    ∃ t : Fin cfg1.N, (cfg1.win 2).flush t = true ∧ i ∈ ((cfg1.win 2).blk t).view.set := by
  have hi0 : (i 0).val < 64 := (i 0).isLt
  have hi1 : (i 1).val < 5 := (i 1).isLt
  have hi2 : (i 2).val < 1024 := (i 2).isLt
  have hi3 : (i 3).val < 512 := (i 3).isLt
  obtain ⟨t, ht⟩ := idx_onto ⟨(i 0).val / 8, by omega⟩ ⟨(i 2).val / 64, by omega⟩
  have q0 : win1_2.index t (0 : Fin 4) = (i 0).val / 8 := congrFun ht 0
  have q1 : win1_2.index t (1 : Fin 4) = 0 := congrFun ht 1
  have q2 : win1_2.index t (2 : Fin 4) = (i 2).val / 64 := congrFun ht 2
  have q3 : win1_2.index t (3 : Fin 4) = 0 := congrFun ht 3
  refine ⟨t, flush1_2 t, ?_⟩
  rw [mem_blk]
  intro a
  match a with
  | ⟨0, _⟩ => show win1_2.index t (0 : Fin 4) * 8 ≤ (i 0).val ∧ (i 0).val < win1_2.index t (0 : Fin 4) * 8 + 8; omega
  | ⟨1, _⟩ => show win1_2.index t (1 : Fin 4) * 5 ≤ (i 1).val ∧ (i 1).val < win1_2.index t (1 : Fin 4) * 5 + 5; omega
  | ⟨2, _⟩ => show win1_2.index t (2 : Fin 4) * 64 ≤ (i 2).val ∧ (i 2).val < win1_2.index t (2 : Fin 4) * 64 + 64; omega
  | ⟨3, _⟩ => show win1_2.index t (3 : Fin 4) * 512 ≤ (i 3).val ∧ (i 3).val < win1_2.index t (3 : Fin 4) * 512 + 512; omega

/-- After region 1 its result array is x rescaled by the table. -/
theorem arr_out (c : Dev nD) : (dat1 V c).arrAt 2 cfg1.N = Cert.PoolSpec.scaleArr (V c main_arg0) (V c main_v39) := by
  exact (dat1 V c).arrAt_eq_of_cover 2 _ (fun t _ => flushed_eq V c t) cover

end Cert.KernelIdeal.Scale

end
-- ==== Proof.KValue.lean ====
/-
  The kernel's program read as values at the extended reals: its result array ends holding x rescaled by the gate
  of x's table of means and x's table of maxima. The first kernel leaves the two tables; the host operations between
  the kernels apply the gate to them and to the parameter arrays as launched; the second kernel, entered with x still
  as launched, rescales x by the gate's table.
-/
import proofs.«121791_j59004260712650_1_alg».proof.Proof.KRun
import proofs.«121791_j59004260712650_1_alg».proof.Proof.Gate
import proofs.«121791_j59004260712650_1_alg».proof.Proof.PoolValue
import proofs.«121791_j59004260712650_1_alg».proof.Proof.ScaleValue

noncomputable section

namespace Cert.KernelIdeal.Value

open Idealize.ShloMosaic Idealize.ShloMosaic.TcCoe Idealize.SL.Sem
open Cert.KernelIdeal Cert.KernelIdeal.Gen
open Cert.PoolSpec

variable (m : (ℓ : Loc nD τ sig) → Buf (Elt Ideal) ℓ) (ρ : Dev nD → PrngReg)

/-- What the result array ends holding, as a function of the launch contents. -/
def result (c : Dev nD) : Buf (Elt Ideal) ((c.tc : Thread nD τ).loc main_v40) :=
  scaleArr (m ((c.tc : Thread nD τ).loc main_arg0))
    (Gate.gate (F := Ideal) (avgArr (m ((c.tc : Thread nD τ).loc main_arg0))) (maxArr (m ((c.tc : Thread nD τ).loc main_arg0)))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)))

/-- The first kernel's two result arrays, when it is left, are the two tables of the launched x. -/
theorem tables (c : Dev nD) :
    W1 m ρ c (Proc.devRef .tc main_v0_0) = avgArr (m ((c.tc : Thread nD τ).loc main_arg0))
      ∧ W1 m ρ c (Proc.devRef .tc main_v0_1) = maxArr (m ((c.tc : Thread nD τ).loc main_arg0)) :=
  ⟨(W1_arr m ρ c 1).trans (Pool.arr_avg (V0 m ρ) c), (W1_arr m ρ c 2).trans (Pool.arr_max (V0 m ρ) c)⟩

/-- The last boundary's contents at the result buffer. -/
theorem final (c : Dev nD) : W7 m ρ c (Proc.devRef .tc main_v40) = result m c := by
  refine (W7_arr m ρ c 2).trans ?_
  rw [Scale.arr_out (V6 m ρ) c]
  show scaleArr (W6 m ρ c (Proc.devRef .tc main_arg0)) (W6 m ρ c (Proc.devRef .tc main_v39)) = _
  rw [Gate.entry_x m ρ c, Gate.entry_table m ρ c, (tables m ρ c).1, (tables m ρ c).2]
  rfl

/-- The run, read: the result array at `result`, the argument arrays as launched. -/
theorem run : θ_run defs (onTc (τ := τ) (main (F := Ideal))) ⟨m, fun _ => 0, ρ⟩ (fun r => ∀ c : Dev nD,
      r.2.mem ((c.tc : Thread nD τ).loc main_v40) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (final m ρ c), (h c).2⟩) (Launch.run_named (F := Ideal) m ρ)

end Cert.KernelIdeal.Value

end
-- ==== Proof.RefValue.lean ====
/-
  The reference read as values at the extended reals: its result is x rescaled by the gate of x's table of means
  and x's table of maxima. The mean is the host's sum over (v, f) from 0, divided by 2¹⁹: the pooled sum times 2⁻¹⁹;
  the maximum is the host's maximum over (v, f) from -∞: the pooled supremum; the gate is the same chain of host
  operations as the kernel's program applies, so it is carried as one function; the two trailing broadcasts read the
  gate's table at the (b, t) coordinates of an index.
-/
import proofs.«121791_j59004260712650_1_alg».proof.Proof.Gen.ReferenceIdeal.Read
import proofs.«121791_j59004260712650_1_alg».proof.Proof.Gate
import proofs.«121791_j59004260712650_1_alg».proof.Proof.PoolSpec
import proofs.«121791_j59004260712650_1_alg».proof.Proof.PoolRef

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read
open Cert.PoolSpec

/-- The reference's mean over (v, f) is the table of means. -/
theorem mean_eq (x0 : (⟨S64x5x1024x512, .f32⟩ : BufTy).Contents (Elt Ideal)) :
    val_main_v2 (F := Ideal) x0 = avgArr x0 := by
  funext j
  rw [val_main_v2_apply]
  show Ideal.div (Ideal.hostReduceAdd reducesTo_S64x5x1024x512_S64x5_d2_3 x0 (Ideal.ofBits .f32 0x00000000#32) j)
    (Ideal.ofBits .f32 0x49000000#32) = _
  rw [hostReduceAdd_two, Ideal.ofBits_zero_f32, zero_add, div_pow19]
  rfl

/-- The reference's maximum over (v, f) is the table of maxima. -/
theorem max_eq (x0 : (⟨S64x5x1024x512, .f32⟩ : BufTy).Contents (Elt Ideal)) :
    val_main_v3 (F := Ideal) x0 = maxArr x0 := by
  funext j
  unfold val_main_v3
  rw [hostReduceMax_two]
  show max (Ideal.ofBits .f32 0xFF800000#32) _ = _
  rw [ofBits_neg_inf]
  exact max_eq_right bot_le

/-- The reference's gate is the kernel program's gate, of the reference's two tables. -/
theorem table_eq (x0 : (⟨S64x5x1024x512, .f32⟩ : BufTy).Contents (Elt Ideal)) (x1 : (⟨S5x25, .f32⟩ : BufTy).Contents (Elt Ideal))
    (x2 : (⟨S25, .f32⟩ : BufTy).Contents (Elt Ideal)) (x3 : (⟨S25x5, .f32⟩ : BufTy).Contents (Elt Ideal))
    (x4 : (⟨S5, .f32⟩ : BufTy).Contents (Elt Ideal)) (x5 : (⟨S1, .f32⟩ : BufTy).Contents (Elt Ideal)) :
    val_main_v42 (F := Ideal) x0 x1 x2 x3 x4 x5
      = Cert.KernelIdeal.Gate.gate (F := Ideal) (val_main_v2 (F := Ideal) x0) (val_main_v3 (F := Ideal) x0) x1 x2 x3 x4 x5 := rfl

/-- The reference's result is x rescaled by the gate of its two tables. -/
theorem result_eq (x0 : (⟨S64x5x1024x512, .f32⟩ : BufTy).Contents (Elt Ideal)) (x1 : (⟨S5x25, .f32⟩ : BufTy).Contents (Elt Ideal))
    (x2 : (⟨S25, .f32⟩ : BufTy).Contents (Elt Ideal)) (x3 : (⟨S25x5, .f32⟩ : BufTy).Contents (Elt Ideal))
    (x4 : (⟨S5, .f32⟩ : BufTy).Contents (Elt Ideal)) (x5 : (⟨S1, .f32⟩ : BufTy).Contents (Elt Ideal)) :
    val_main_v45 (F := Ideal) x0 x1 x2 x3 x4 x5
      = scaleArr x0 (Cert.KernelIdeal.Gate.gate (F := Ideal) (avgArr x0) (maxArr x0) x1 x2 x3 x4 x5) := by
  funext i
  rw [val_main_v45_apply, val_main_v44_apply, val_main_v43_apply, table_eq, mean_eq, max_eq]
  rfl

end Cert.ReferenceIdeal.RefValue

end
-- ==== Proof.lean ====
/-
  The certificate. Both programs compute, over the extended reals, x[b, t, v, f] · g[b, t], where g is a gate (a two-layer
  perceptron with a logistic output, applied to the mean and to the maximum of x over (v, f) and mixed with a learned
  weight). The kernel's program pools x tile by tile over v on a grid, accumulating the sum and the maximum in place and
  scaling the sum by 2⁻¹⁹ at the last tile; the reference sums and maximises over (v, f) at once and divides by 2¹⁹.
  Sums and maxima of extended reals do not depend on grouping, and division by 2¹⁹ is multiplication by 2⁻¹⁹, so
  the two tables agree; the gate and the rescaling are the same operations in both programs. The ideal pass rewrote
  nothing, so the preservation claim is trivial. The frames of the two kernel programs are the generated ones; the
  reference's frame is its generated run with the result dropped.
-/
import proofs.«121791_j59004260712650_1_alg».proof.Defs
import proofs.«121791_j59004260712650_1_alg».proof.Proof.Gen.Kernel
import proofs.«121791_j59004260712650_1_alg».proof.Proof.Gen.Kernel.Skeleton
import proofs.«121791_j59004260712650_1_alg».proof.Proof.Gen.Kernel.Launch
import proofs.«121791_j59004260712650_1_alg».proof.Proof.Gen.Kernel.Points
import proofs.«121791_j59004260712650_1_alg».proof.Proof.Gen.Kernel.Frame
import proofs.«121791_j59004260712650_1_alg».proof.Proof.Gen.KernelIdeal
import proofs.«121791_j59004260712650_1_alg».proof.Proof.Gen.KernelIdeal.Skeleton
import proofs.«121791_j59004260712650_1_alg».proof.Proof.Gen.KernelIdeal.Launch
import proofs.«121791_j59004260712650_1_alg».proof.Proof.Gen.KernelIdeal.Points
import proofs.«121791_j59004260712650_1_alg».proof.Proof.Gen.KernelIdeal.Frame
import proofs.«121791_j59004260712650_1_alg».proof.Proof.Gen.ReferenceIdeal
import proofs.«121791_j59004260712650_1_alg».proof.Proof.Gen.ReferenceIdeal.Run
import proofs.«121791_j59004260712650_1_alg».proof.Proof.Gen.ReferenceIdeal.Read
import proofs.«121791_j59004260712650_1_alg».proof.Proof.Gen.Pre_finite_inputs
import proofs.«121791_j59004260712650_1_alg».proof.Proof.KValue
import proofs.«121791_j59004260712650_1_alg».proof.Proof.RefValue
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the extended reals the kernel program's result array ends at x rescaled by the gate of its two tables (the
    value of its run) and so does the reference's (the value of its run), of arguments that agree. -/
theorem algebraic : Cert.algebraic_KernelIdeal_ReferenceIdeal := by
  intro m ρ m' ρ' _ hagree
  refine ⟨fun c => Cert.KernelIdeal.Value.result m c, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, Cert.ReferenceIdeal.RefValue.result_eq,
    (hagree c).1, (hagree c).2.1, (hagree c).2.2.1, (hagree c).2.2.2.1, (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
